-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S_ : Shape := ⟨0, ![]⟩
abbrev S3 : Shape := ⟨1, ![3]⟩
abbrev S8388608 : Shape := ⟨1, ![8388608]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  reducesTo_S_S_d : S_.ReducesTo [] S_
  bcast_S_S3 : S_.BroadcastsInDim S3 (![] : Fin 0 → Fin S3.rank)
  reducesTo_S3_S_d0 : S3.ReducesTo [0] S_
  bcast_S_S8388608 : S_.BroadcastsInDim S8388608 (![] : Fin 0 → Fin S8388608.rank)
  reducesTo_S8388608_S_d0 : S8388608.ReducesTo [0] S_

variable [Facts]

def fn_part1 {F : FTy → Type} [FloatOps F] (main_arg4 : IVec S8388608 32) (main_arg5 : IVec S8388608 32) (main_v11 : IVec S_ 1) (main_v15 : IVec S_ 1) : IVec S_ 1 :=
  let main_v16 : IVec S_ 1 := andi main_v11 main_v15
  let main_c_6 : IVec S_ 32 := constantI S_ 32 4294705152#32
  let main_v17 : IVec S8388608 32 := broadcastInDim S8388608 ![] bcast_S_S8388608 main_c_6
  let main_v18 : IVec S8388608 1 := cmpi .sge main_arg4 main_v17
  let main_c_7 : IVec S_ 32 := constantI S_ 32 262144#32
  let main_v19 : IVec S8388608 32 := broadcastInDim S8388608 ![] bcast_S_S8388608 main_c_7
  let main_v20 : IVec S8388608 1 := cmpi .slt main_arg4 main_v19
  let main_v21 : IVec S8388608 1 := andi main_v18 main_v20
  let main_c_8 : IVec S_ 1 := constantI S_ 1 1#1
  let main_v22 : IVec S_ 1 := (fun x v => Host.reduce IntOp.andi x v reducesTo_S8388608_S_d0 h_S_) main_v21 main_c_8
  let main_v23 : IVec S_ 1 := andi main_v16 main_v22
  let main_c_9 : IVec S_ 32 := constantI S_ 32 4294705152#32
  let main_v24 : IVec S8388608 32 := broadcastInDim S8388608 ![] bcast_S_S8388608 main_c_9
  let main_v25 : IVec S8388608 1 := cmpi .sge main_arg5 main_v24
  let main_c_10 : IVec S_ 32 := constantI S_ 32 262144#32
  let main_v26 : IVec S8388608 32 := broadcastInDim S8388608 ![] bcast_S_S8388608 main_c_10
  let main_v27 : IVec S8388608 1 := cmpi .slt main_arg5 main_v26
  let main_v28 : IVec S8388608 1 := andi main_v25 main_v27
  let main_c_11 : IVec S_ 1 := constantI S_ 1 1#1
  let main_v29 : IVec S_ 1 := (fun x v => Host.reduce IntOp.andi x v reducesTo_S8388608_S_d0 h_S_) main_v28 main_c_11
  let main_v30 : IVec S_ 1 := andi main_v23 main_v29
  main_v30

def fn {F : FTy → Type} [FloatOps F] (main_arg0 : FVec F S262144x3 .f32) (main_arg1 : FVec F S_ .f32) (main_arg2 : FVec F S_ .f32) (main_arg3 : FVec F S3 .f32) (main_arg4 : IVec S8388608 32) (main_arg5 : IVec S8388608 32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg2
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  let main_v12 : FVec F S3 .f32 := Host.absf main_arg3
  let main_cst_4 : FVec F S_ .f32 := constant S_ .f32 0x7F800000#32
  let main_v13 : FVec F S3 .f32 := broadcastInDim S3 ![] bcast_S_S3 main_cst_4
  let main_v14 : IVec S3 1 := cmpf .olt main_v12 main_v13
  let main_c_5 : IVec S_ 1 := constantI S_ 1 1#1
  let main_v15 : IVec S_ 1 := (fun x v => Host.reduce IntOp.andi x v reducesTo_S3_S_d0 h_S_) main_v14 main_c_5
  fn_part1 (F := F) main_arg4 main_arg5 main_v11 main_v15
-- ==== Kernel.lean ====
abbrev S262144x3 : Shape := ⟨2, ![262144, 3]⟩
abbrev S_ : Shape := ⟨0, ![]⟩
abbrev S3 : Shape := ⟨1, ![3]⟩
abbrev S8388608 : Shape := ⟨1, ![8388608]⟩
abbrev S3x262144 : Shape := ⟨2, ![3, 262144]⟩
abbrev S8388608x1 : Shape := ⟨2, ![8388608, 1]⟩
abbrev S1 : Shape := ⟨1, ![1]⟩
abbrev S1x1 : Shape := ⟨2, ![1, 1]⟩
abbrev S3x8388608 : Shape := ⟨2, ![3, 8388608]⟩
abbrev S3x65536x128 : Shape := ⟨3, ![3, 65536, 128]⟩
abbrev S3x1x1 : Shape := ⟨3, ![3, 1, 1]⟩
abbrev S2x1x128 : Shape := ⟨3, ![2, 1, 128]⟩
abbrev S3x2048x128 : Shape := ⟨3, ![3, 2048, 128]⟩
abbrev S1x1x128 : Shape := ⟨3, ![1, 1, 128]⟩
abbrev S2048x128 : Shape := ⟨2, ![2048, 128]⟩
abbrev S128 : Shape := ⟨1, ![128]⟩
abbrev S1x128 : Shape := ⟨2, ![1, 128]⟩

abbrev nBuf : Space → Nat
  | .hbm => 67
  | .vmem => 8
  | .smem => 0
  | _ => 0

abbrev bufTy : (tb : Table) → Fin (tcTables nBuf tb) → BufTy
  | .hbm, ⟨0, _⟩ => ⟨S262144x3, .f32⟩
  | .hbm, ⟨1, _⟩ => ⟨S_, .f32⟩
  | .hbm, ⟨2, _⟩ => ⟨S_, .f32⟩
  | .hbm, ⟨3, _⟩ => ⟨S3, .f32⟩
  | .hbm, ⟨4, _⟩ => ⟨S8388608, .i32⟩
  | .hbm, ⟨5, _⟩ => ⟨S8388608, .i32⟩
  | .hbm, ⟨6, _⟩ => ⟨S3x262144, .f32⟩
  | .hbm, ⟨7, _⟩ => ⟨S_, .i32⟩
  | .hbm, ⟨8, _⟩ => ⟨S8388608, .i32⟩
  | .hbm, ⟨9, _⟩ => ⟨S8388608, .i1⟩
  | .hbm, ⟨10, _⟩ => ⟨S_, .i32⟩
  | .hbm, ⟨11, _⟩ => ⟨S8388608, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S1, .i32⟩
  | .hbm, ⟨16, _⟩ => ⟨S_, .i32⟩
  | .hbm, ⟨17, _⟩ => ⟨S8388608x1, .i32⟩
  | .hbm, ⟨18, _⟩ => ⟨S8388608x1, .i1⟩
  | .hbm, ⟨19, _⟩ => ⟨S1x1, .i32⟩
  | .hbm, ⟨20, _⟩ => ⟨S8388608x1, .i32⟩
  | .hbm, ⟨21, _⟩ => ⟨S8388608x1, .i1⟩
  | .hbm, ⟨22, _⟩ => ⟨S8388608x1, .i1⟩
  | .hbm, ⟨23, _⟩ => ⟨S_, .i1⟩
  | .hbm, ⟨24, _⟩ => ⟨S8388608, .i1⟩
  | .hbm, ⟨25, _⟩ => ⟨S3x8388608, .f32⟩
  | .hbm, ⟨26, _⟩ => ⟨S3x8388608, .i1⟩
  | .hbm, ⟨27, _⟩ => ⟨S_, .f32⟩
  | .hbm, ⟨28, _⟩ => ⟨S3x8388608, .f32⟩
  | .hbm, ⟨29, _⟩ => ⟨S3x8388608, .f32⟩
  | .hbm, ⟨30, _⟩ => ⟨S_, .i32⟩
  | .hbm, ⟨31, _⟩ => ⟨S8388608, .i32⟩
  | .hbm, ⟨32, _⟩ => ⟨S8388608, .i1⟩
  | .hbm, ⟨33, _⟩ => ⟨S_, .i32⟩
  | .hbm, ⟨34, _⟩ => ⟨S8388608, .i32⟩
  | .hbm, ⟨35, _⟩ => ⟨S8388608, .i32⟩
  | .hbm, ⟨36, _⟩ => ⟨S8388608, .i32⟩
  | .hbm, ⟨37, _⟩ => ⟨S8388608x1, .i32⟩
  | .hbm, ⟨38, _⟩ => ⟨S1, .i32⟩
  | .hbm, ⟨39, _⟩ => ⟨S_, .i32⟩
  | .hbm, ⟨40, _⟩ => ⟨S8388608x1, .i32⟩
  | .hbm, ⟨41, _⟩ => ⟨S8388608x1, .i1⟩
  | .hbm, ⟨42, _⟩ => ⟨S1x1, .i32⟩
  | .hbm, ⟨43, _⟩ => ⟨S8388608x1, .i32⟩
  | .hbm, ⟨44, _⟩ => ⟨S8388608x1, .i1⟩
  | .hbm, ⟨45, _⟩ => ⟨S8388608x1, .i1⟩
  | .hbm, ⟨46, _⟩ => ⟨S_, .i1⟩
  | .hbm, ⟨47, _⟩ => ⟨S8388608, .i1⟩
  | .hbm, ⟨48, _⟩ => ⟨S3x8388608, .f32⟩
  | .hbm, ⟨49, _⟩ => ⟨S3x8388608, .i1⟩
  | .hbm, ⟨50, _⟩ => ⟨S_, .f32⟩
  | .hbm, ⟨51, _⟩ => ⟨S3x8388608, .f32⟩
  | .hbm, ⟨52, _⟩ => ⟨S3x8388608, .f32⟩
  | .hbm, ⟨53, _⟩ => ⟨S3x8388608, .f32⟩
  | .hbm, ⟨54, _⟩ => ⟨S3x65536x128, .f32⟩
  | .hbm, ⟨55, _⟩ => ⟨S3x1x1, .f32⟩
  | .hbm, ⟨56, _⟩ => ⟨S_, .f32⟩
  | .hbm, ⟨57, _⟩ => ⟨S3x1x1, .f32⟩
  | .hbm, ⟨58, _⟩ => ⟨S3x1x1, .f32⟩
  | .hbm, ⟨59, _⟩ => ⟨S_, .f32⟩
  | .hbm, ⟨60, _⟩ => ⟨S1x1, .f32⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S2x1x128, .f32⟩
  | .hbm, ⟨65, _⟩ => ⟨S_, .f32⟩
  | .hbm, ⟨66, _⟩ => ⟨S_, .f32⟩
  | .local _ .vmem, ⟨0, _⟩ => ⟨S3x2048x128, .f32⟩
  | .local _ .vmem, ⟨1, _⟩ => ⟨S3x2048x128, .f32⟩
  | .local _ .vmem, ⟨2, _⟩ => ⟨S3x1x1, .f32⟩
  | .local _ .vmem, ⟨3, _⟩ => ⟨S3x1x1, .f32⟩
  | .local _ .vmem, ⟨4, _⟩ => ⟨S1x1, .f32⟩
  | .local _ .vmem, ⟨5, _⟩ => ⟨S1x1, .f32⟩
  | .local _ .vmem, ⟨6, _⟩ => ⟨S1x1x128, .f32⟩
  | .local _ .vmem, ⟨7, _⟩ => ⟨S1x1x128, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_cst : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_cst_0 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_cst_1 : Ref sig .tc := ⟨.hbm, 65, rfl⟩
abbrev main_v13 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S262144x3_S3x262144_1_0 : S262144x3.Transposes [1, 0] S3x262144
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  reducesTo_S8388608x1_S8388608_d1 : S8388608x1.ReducesTo [1] S8388608
  h_S_ : 0 < S_.numel
  bcast_S8388608_S3x8388608_1 : S8388608.BroadcastsInDim S3x8388608 (![1] : Fin 1 → Fin S3x8388608.rank)
  bcast_S_S3x8388608 : S_.BroadcastsInDim S3x8388608 (![] : Fin 0 → Fin S3x8388608.rank)
  shapeCasts_S3x8388608_S3x65536x128 : S3x8388608.ShapeCasts S3x65536x128
  shapeCasts_S3_S3x1x1 : S3.ShapeCasts S3x1x1
  bcast_S_S3x1x1 : S_.BroadcastsInDim S3x1x1 (![] : Fin 0 → Fin S3x1x1.rank)
  shapeCasts_S_S1x1 : S_.ShapeCasts S1x1
  inb_S1x1x128_S1x1x128_0_0_0 : ∀ a, (![0, 0, 0] : Fin 3 → Nat) a + S1x1x128.size a ≤ S1x1x128.size a
  h_S1x1x128 : 0 < S1x1x128.numel
  inb_S3x2048x128_S3x2048x128_0_0_0 : ∀ a, (![0, 0, 0] : Fin 3 → Nat) a + S3x2048x128.size a ≤ S3x2048x128.size a
  h_S3x2048x128 : 0 < S3x2048x128.numel
  shapeCasts_S3x2048x128_S3x2048x128 : S3x2048x128.ShapeCasts S3x2048x128
  inb_S3x1x1_S3x1x1_0_0_0 : ∀ a, (![0, 0, 0] : Fin 3 → Nat) a + S3x1x1.size a ≤ S3x1x1.size a
  h_S3x1x1 : 0 < S3x1x1.numel
  shapeCasts_S3x1x1_S3x1x1 : S3x1x1.ShapeCasts S3x1x1
  broadcasts_S3x1x1_S3x2048x128 : S3x1x1.Broadcasts S3x2048x128
  reduces_S3x2048x128_S2048x128 : S3x2048x128.Reduces [0] S2048x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x128 : S1x1.Broadcasts S2048x128
  reduces_S2048x128_S128 : S2048x128.Reduces [0] S128
  shapeCasts_S128_S1x128 : S128.ShapeCasts S1x128
  shapeCasts_S1x1x128_S1x1x128 : S1x1x128.ShapeCasts S1x1x128
  shapeCasts_S1x128_S1x1x128 : S1x128.ShapeCasts S1x1x128
  reducesTo_S2x1x128_S_d0_1_2 : S2x1x128.ReducesTo [0, 1, 2] S_
  gather_S3x262144_S8388608x1_S3x8388608_0_1_n_n_1_1_31_wf : GatherDims.WF S3x262144 S8388608x1 S3x8388608 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2048x128.size a ≤ S3x65536x128.size a
  hwx0_0 : ∀ i : grid0.Coords, EltTy.bits .f32 = 32 ∨ (Rect.block (s := S3x65536x128) S3x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1x1.size a ≤ S3x1x1.size a
  hwx0_1 : ∀ i : grid0.Coords, EltTy.bits .f32 = 32 ∨ (Rect.block (s := S3x1x1) S3x1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1x1.size a ≤ S3x1x1.size a
  hwx0_2 : ∀ i : grid0.Coords, EltTy.bits .f32 = 32 ∨ (Rect.block (s := S3x1x1) S3x1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

def gather_S3x262144_S8388608x1_S3x8388608_0_1_n_n_1_1_31 : GatherDims S3x262144 S8388608x1 S3x8388608 where
  offsetDims := [0]
  collapsedSliceDims := [1]
  operandBatchingDims := []
  startIndicesBatchingDims := []
  startIndexMap := [1]
  indexVectorDim := 1
  sliceSizes := ![3, 1]
  wf := gather_S3x262144_S8388608x1_S3x8388608_0_1_n_n_1_1_31_wf

abbrev win0_0 : Pipeline.Window sig grid0 :=
  Pipeline.Window.ofSpec (Memref.whole main_v4) S3x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S3x1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x3 : Shape := ⟨2, ![262144, 3]⟩
abbrev S_ : Shape := ⟨0, ![]⟩
abbrev S3 : Shape := ⟨1, ![3]⟩
abbrev S8388608 : Shape := ⟨1, ![8388608]⟩
abbrev S8388608x1 : Shape := ⟨2, ![8388608, 1]⟩
abbrev S8388608x3 : Shape := ⟨2, ![8388608, 3]⟩
abbrev S1x3 : Shape := ⟨2, ![1, 3]⟩

abbrev nBuf : Space → Nat
  | .hbm => 49
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S_, .f32⟩
  | .hbm, ⟨2, _⟩ => ⟨S_, .f32⟩
  | .hbm, ⟨3, _⟩ => ⟨S3, .f32⟩
  | .hbm, ⟨4, _⟩ => ⟨S8388608, .i32⟩
  | .hbm, ⟨5, _⟩ => ⟨S8388608, .i32⟩
  | .hbm, ⟨6, _⟩ => ⟨S_, .i32⟩
  | .hbm, ⟨7, _⟩ => ⟨S8388608, .i32⟩
  | .hbm, ⟨8, _⟩ => ⟨S8388608, .i1⟩
  | .hbm, ⟨9, _⟩ => ⟨S_, .i32⟩
  | .hbm, ⟨10, _⟩ => ⟨S8388608, .i32⟩
  | .hbm, ⟨11, _⟩ => ⟨S8388608, .i32⟩
  | .hbm, ⟨12, _⟩ => ⟨S8388608, .i32⟩
  | .hbm, ⟨13, _⟩ => ⟨S8388608x1, .i32⟩
  | .hbm, ⟨14, _⟩ => ⟨S8388608x3, .f32⟩
  | .hbm, ⟨15, _⟩ => ⟨S_, .i32⟩
  | .hbm, ⟨16, _⟩ => ⟨S8388608, .i32⟩
  | .hbm, ⟨17, _⟩ => ⟨S8388608, .i1⟩
  | .hbm, ⟨18, _⟩ => ⟨S_, .i32⟩
  | .hbm, ⟨19, _⟩ => ⟨S8388608, .i32⟩
  | .hbm, ⟨20, _⟩ => ⟨S8388608, .i32⟩
  | .hbm, ⟨21, _⟩ => ⟨S8388608, .i32⟩
  | .hbm, ⟨22, _⟩ => ⟨S8388608x1, .i32⟩
  | .hbm, ⟨23, _⟩ => ⟨S8388608x3, .f32⟩
  | .hbm, ⟨24, _⟩ => ⟨S8388608x3, .f32⟩
  | .hbm, ⟨25, _⟩ => ⟨S1x3, .f32⟩
  | .hbm, ⟨26, _⟩ => ⟨S8388608x3, .f32⟩
  | .hbm, ⟨27, _⟩ => ⟨S8388608x3, .f32⟩
  | .hbm, ⟨28, _⟩ => ⟨S8388608x3, .f32⟩
  | .hbm, ⟨29, _⟩ => ⟨S1x3, .f32⟩
  | .hbm, ⟨30, _⟩ => ⟨S8388608x3, .f32⟩
  | .hbm, ⟨31, _⟩ => ⟨S8388608x3, .f32⟩
  | .hbm, ⟨32, _⟩ => ⟨S8388608x3, .f32⟩
  | .hbm, ⟨33, _⟩ => ⟨S8388608x3, .f32⟩
  | .hbm, ⟨34, _⟩ => ⟨S_, .f32⟩
  | .hbm, ⟨35, _⟩ => ⟨S8388608, .f32⟩
  | .hbm, ⟨36, _⟩ => ⟨S_, .f32⟩
  | .hbm, ⟨37, _⟩ => ⟨S8388608, .f32⟩
  | .hbm, ⟨38, _⟩ => ⟨S8388608, .f32⟩
  | .hbm, ⟨39, _⟩ => ⟨S8388608, .f32⟩
  | .hbm, ⟨40, _⟩ => ⟨S8388608, .f32⟩
  | .hbm, ⟨41, _⟩ => ⟨S_, .f32⟩
  | .hbm, ⟨42, _⟩ => ⟨S_, .f32⟩
  | .hbm, ⟨43, _⟩ => ⟨S8388608, .f32⟩
  | .hbm, ⟨44, _⟩ => ⟨S8388608, .f32⟩
  | .hbm, ⟨45, _⟩ => ⟨S8388608, .f32⟩
  | .hbm, ⟨46, _⟩ => ⟨S8388608, .f32⟩
  | .hbm, ⟨47, _⟩ => ⟨S_, .f32⟩
  | .hbm, ⟨48, _⟩ => ⟨S_, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S3_S1x3_1 : S3.BroadcastsInDim S1x3 (![1] : Fin 1 → Fin S1x3.rank)
  bcast_S1x3_S8388608x3_0_1 : S1x3.BroadcastsInDim S8388608x3 (![0, 1] : Fin 2 → Fin S8388608x3.rank)
  reducesTo_S8388608x3_S8388608_d1 : S8388608x3.ReducesTo [1] S8388608
  h_S_ : 0 < S_.numel
  reducesTo_S8388608_S_d0 : S8388608.ReducesTo [0] S_
  gather_S262144x3_S8388608x1_S8388608x3_1_0_n_n_0_1_13_wf : GatherDims.WF S262144x3 S8388608x1 S8388608x3 [1] [0] [] [0] [] 1 ![1, 3]

variable [Facts₀]

def gather_S262144x3_S8388608x1_S8388608x3_1_0_n_n_0_1_13 : GatherDims S262144x3 S8388608x1 S8388608x3 where
  offsetDims := [1]
  collapsedSliceDims := [0]
  operandBatchingDims := []
  startIndicesBatchingDims := []
  startIndexMap := [0]
  indexVectorDim := 1
  sliceSizes := ![1, 3]
  wf := gather_S262144x3_S8388608x1_S8388608x3_1_0_n_n_0_1_13_wf

class Facts : Prop extends Facts₀ where

variable [Facts]
-- ==== Proof.StepBlock.lean ====
/-
  What one grid step leaves in the output block, case by case.

  The body loads the step's [3, 2048, 128] block of pair displacements, the per-coordinate reciprocal box edges and
  box edges, the two scalars, and the output block, and stores the output block plus this step's lane sums.  At the
  first step of each half it first stores the zero block, so what it then reads back is that zero block; at every
  other step it reads what the step before left.  In both cases the block it leaves is the body's one pure term of
  those loads.
-/
import proofs.«415974_j5695126634505_3_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.Tactic

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A step that is not the first of its half: over the block `xo` the step before left, the body leaves its term of
    the five input blocks and `xo`. -/
theorem out_B (c : Dev nD) (i : grid0.Coords) (a2 : Memref sig .tc .vmem S3x2048x128 .f32) (h2 : a2.IsWhole) (a3 : Memref sig .tc .vmem S3x1x1 .f32) (h3 : a3.IsWhole) (a4 : Memref sig .tc .vmem S3x1x1 .f32) (h4 : a4.IsWhole) (a5 : Memref sig .tc .vmem S1x1 .f32) (h5 : a5.IsWhole) (a6 : Memref sig .tc .vmem S1x1 .f32) (h6 : a6.IsWhole) (a7 : Memref sig .tc .vmem S1x1x128 .f32) (h7 : a7.IsWhole) (hc : ¬cond0_0 i) (x0 : Vec F S3x2048x128 .f32) (x1 : Vec F S3x1x1 .f32) (x2 : Vec F S3x1x1 .f32) (x3 : Vec F S1x1 .f32) (x4 : Vec F S1x1 .f32) (xo : Vec F S1x1x128 .f32) :
    out0_B_5 c i a2 h2 a3 h3 a4 h4 a5 h5 a6 h6 a7 h7 hc x0 x1 x2 x3 x4 xo = k0_pay2 x0 x1 x2 x3 x4 xo := by
  unfold out0_B_5
  rw [View.read_writes_eq_canon _ _ _ (cover0_B_5 c i a2 h2 a3 h3 a4 h4 a5 h5 a6 h6 a7 h7 hc x0 x1 x2 x3 x4 xo)]
  unfold kernelRun0_B
  dsimp only
  sl_unfold_words
  rw [View.canon_unit_zero hz3]
  simp only [View.readAt_eq_ld, h2.read_unread, h3.read_unread, h4.read_unread, h5.read_unread, h6.read_unread,
    h7.read_unread, View.ld_unit_zero (S := S3x2048x128) hz3, View.ld_unit_zero (S := S3x1x1) hz3,
    View.ld_unit_zero (S := S1x1) hz2, View.ld_unit_zero (S := S1x1x128) hz3]

/-- The first step of a half: the body stores the zero block, reads it back, and leaves its term of the five input
    blocks and that zero block. -/
theorem out_A (c : Dev nD) (i : grid0.Coords) (a2 : Memref sig .tc .vmem S3x2048x128 .f32) (h2 : a2.IsWhole) (a3 : Memref sig .tc .vmem S3x1x1 .f32) (h3 : a3.IsWhole) (a4 : Memref sig .tc .vmem S3x1x1 .f32) (h4 : a4.IsWhole) (a5 : Memref sig .tc .vmem S1x1 .f32) (h5 : a5.IsWhole) (a6 : Memref sig .tc .vmem S1x1 .f32) (h6 : a6.IsWhole) (a7 : Memref sig .tc .vmem S1x1x128 .f32) (h7 : a7.IsWhole) (hc : cond0_0 i) (x0 : Vec F S3x2048x128 .f32) (x1 : Vec F S3x1x1 .f32) (x2 : Vec F S3x1x1 .f32) (x3 : Vec F S1x1 .f32) (x4 : Vec F S1x1 .f32) :
    out0_A_5 c i a2 h2 a3 h3 a4 h4 a5 h5 a6 h6 a7 h7 hc x0 x1 x2 x3 x4 = k0_pay2 x0 x1 x2 x3 x4 (k0_pay1 (F := F)) := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread,
    View.ld_unit_zero (S := S3x2048x128) hz3, View.ld_unit_zero (S := S3x1x1) hz3,
    View.ld_unit_zero (S := S1x1) hz2, View.ld_unit_zero (S := S1x1x128) hz3]

end Cert.KernelIdeal.Acc

end
-- ==== Proof.PairEnergy.lean ====
/-
  The mathematics both programs compute: the Lennard-Jones energy of a list of particle pairs in a periodic box.

  For a pair of particle rows i, j the displacement x_i - x_j is wrapped, coordinate by coordinate, to its
  minimum image  dx - b * round(dx / b)  (b the box edge, round = nearest, ties to even), the squared distance r2 is
  the sum of the three squared wrapped coordinates, and the pair's energy is  4 eps * (s6 * s6 - s6)  with
  s6 = (sigma^2 / r2)^3.  The result is the sum of the pair energies over all 8388608 pairs.

  One program forms the quotient dx / b, the other the product dx * (1 / b).  On the extended reals these agree for
  every b other than 0 (the quotient IS the product with the inverse, at the infinities too), and at b = 0 the factor b
  in front annihilates whatever the rounding returned: the two wrapped coordinates are equal for all dx and b.
-/
import Idealize.ShloMosaic.PureOps.Ideal
import Idealize.ShloMosaic.PureOps.Ideal.Laws
import Idealize.ShloMosaic.Lib.IdealHost
import Idealize.ShloMosaic.Lib.ValueIdx

noncomputable section

open scoped BigOperators

namespace Cert.LJ

open Idealize.ShloMosaic Idealize.ShloMosaic.ValueIdx

/-- Rounding to the nearest integer, ties to even, on the extended reals (the infinities fixed). -/
abbrev rnd (x : EReal) : EReal := Ideal.liftRound Ideal.roundHalfEven x

/-- The minimum-image coordinate through the quotient: `dx - b * round (dx / b)`. -/
def wrapQ (dx b : EReal) : EReal := dx - b * rnd (Ideal.div dx b)

/-- The minimum-image coordinate through the reciprocal: `dx - b * round (dx * (1 / b))`. -/
def wrapR (dx b : EReal) : EReal := dx - b * rnd (dx * Ideal.div 1 b)

/-- The two spellings agree everywhere: off `b = 0` the quotient is the product with `b⁻¹` and `1 / b = b⁻¹`; at
    `b = 0` both subtract `0 * _ = 0`. -/
theorem wrapR_eq_wrapQ (dx b : EReal) : wrapR dx b = wrapQ dx b := by
  unfold wrapR wrapQ
  by_cases hb : b = 0
  · subst hb; simp only [zero_mul]
  · have h1 : Ideal.div 1 b = b⁻¹ := by unfold Ideal.div; rw [if_neg hb, one_mul]
    have h2 : Ideal.div dx b = dx * b⁻¹ := by unfold Ideal.div; rw [if_neg hb]
    rw [h1, h2]

/-- A pair's energy from its squared distance `r2`: `fe * (s6 * s6 - s6)`, `s6 = (sn / r2)^3` as the product
    `(q * q) * q`. -/
def energy (fe sn r2 : EReal) : EReal :=
  fe * ((Ideal.div sn r2 * Ideal.div sn r2 * Ideal.div sn r2) * (Ideal.div sn r2 * Ideal.div sn r2 * Ideal.div sn r2)
    - Ideal.div sn r2 * Ideal.div sn r2 * Ideal.div sn r2)

/-- An index word normalised as numpy normalises an index into 262144 rows: a negative word has 262144 added. -/
def norm (w : BitVec 32) : BitVec 32 := Scalar.select (IntOp.cmpi .slt w 0#32) (IntOp.addi w 262144#32) w

/-- The table row a normalised index word reads once clamped into the table. -/
def row (w : BitVec 32) : Fin 262144 := ⟨min (norm w).toInt.toNat 262143, by omega⟩

/-- Coordinate `d` of the minimum-image displacement between the rows the words `wi`, `wj` name. -/
def disp (x : (⟨2, ![262144, 3]⟩ : Shape).Idx → EReal) (box : (⟨1, ![3]⟩ : Shape).Idx → EReal) (wi wj : BitVec 32)
    (d : Fin 3) : EReal :=
  wrapQ (x (ix2 (row wi) d) - x (ix2 (row wj) d)) (box (ix1 d))

/-- The squared minimum-image distance. -/
def dist2 (x : (⟨2, ![262144, 3]⟩ : Shape).Idx → EReal) (box : (⟨1, ![3]⟩ : Shape).Idx → EReal) (wi wj : BitVec 32) : EReal :=
  ∑ d : Fin 3, disp x box wi wj d * disp x box wi wj d

/-- One pair's energy: `4 eps * (s6 * s6 - s6)` with `s6 = (sigma * sigma / r2)^3`. -/
def pairE (x : (⟨2, ![262144, 3]⟩ : Shape).Idx → EReal) (e s : (⟨0, ![]⟩ : Shape).Idx → EReal)
    (box : (⟨1, ![3]⟩ : Shape).Idx → EReal) (wi wj : BitVec 32) : EReal :=
  energy (Ideal.ofBits .f32 0x40800000#32 * e ix0) (s ix0 * s ix0) (dist2 x box wi wj)

/-- The total energy: the sum over the pairs. -/
def total (x : (⟨2, ![262144, 3]⟩ : Shape).Idx → EReal) (e s : (⟨0, ![]⟩ : Shape).Idx → EReal)
    (box : (⟨1, ![3]⟩ : Shape).Idx → EReal) (ii jj : (⟨1, ![8388608]⟩ : Shape).Idx → BitVec 32) : EReal :=
  ∑ p : Fin 8388608, pairE x e s box (ii (ix1 p)) (jj (ix1 p))

end Cert.LJ

end
-- ==== Proof.StepLane.lean ====
/-
  The body's term read at a lane.

  At lane l of the [1, 1, 128] output block the body leaves what the block held there plus the sum, over the 2048
  rows r of the step's block, of the pair energy of element (r, l): its squared distance is the sum over the three
  coordinates d of the squared wrapped displacement  dx - b * round (dx * ib)  with dx the block's element (d, r, l),
  ib and b the d-th reciprocal box edge and box edge, and its two scalars are the [1, 1] blocks' one element.
-/
import proofs.«415974_j5695126634505_3_alg».proof.Proof.StepBlock
import proofs.«415974_j5695126634505_3_alg».proof.Proof.PairEnergy
import Idealize.ShloMosaic.Lib.ValueLayout

noncomputable section

open scoped BigOperators
open Idealize.ShloMosaic Idealize.ShloMosaic.TcCoe Idealize.ShloMosaic.ValueIdx

namespace Cert.KernelIdeal.Acc

open Cert.KernelIdeal Cert.KernelIdeal.Gen Cert.LJ

/-- A wrapped displacement coordinate with the reciprocal box edge as a value of its own. -/
def wrapP (dx ib b : EReal) : EReal := dx - b * rnd (dx * ib)

/-- The [3, 1, 1] per-coordinate blocks spread over a [3, 2048, 128] block read their coordinate's element. -/
theorem spread3 (v : FVec Ideal S3x1x1 .f32) (h : S3x1x1.Broadcasts S3x2048x128) (d : Fin 3) (r : Fin 2048) (l : Fin 128) :
    broadcastTo S3x2048x128 v h (ix3 d r l) = v (ix3 d (0 : Fin 1) (0 : Fin 1)) :=
  broadcastTo_apply v h _ _ fun a => match a with
    | ⟨0, _⟩ => by show d.val = if (3 : Nat) = 1 then 0 else d.val; rw [if_neg (by decide)]
    | ⟨1, _⟩ => by show (0 : Nat) = if (1 : Nat) = 1 then 0 else r.val; rw [if_pos rfl]
    | ⟨2, _⟩ => by show (0 : Nat) = if (1 : Nat) = 1 then 0 else l.val; rw [if_pos rfl]

/-- A [1, 1] block spread over a [2048, 128] block reads its one element. -/
theorem spread2 (v : FVec Ideal S1x1 .f32) (h : S1x1.Broadcasts S2048x128) (r : Fin 2048) (l : Fin 128) :
    broadcastTo S2048x128 v h (ix2 r l) = v (ix2 (0 : Fin 1) (0 : Fin 1)) :=
  broadcastTo_apply v h _ _ fun a => match a with
    | ⟨0, _⟩ => by show (0 : Nat) = if (1 : Nat) = 1 then 0 else r.val; rw [if_pos rfl]
    | ⟨1, _⟩ => by show (0 : Nat) = if (1 : Nat) = 1 then 0 else l.val; rw [if_pos rfl]

/-- The sum over the coordinate axis of a [3, 2048, 128] block, at (r, l). -/
theorem coordSum (v : FVec Ideal S3x2048x128 .f32) (h : S3x2048x128.Reduces [0] S2048x128) (hφ : FKind.Formats .f32)
    (hacc : (0x00000000#32 : BitVec 32) = FKind.add.neutral .f32 hφ) (r : Fin 2048) (l : Fin 128) :
    multiReduction .add [0] S2048x128 v 0x00000000#32 h hφ hacc (ix2 r l) = ∑ d : Fin 3, v (ix3 d r l) := by
  refine (Ideal.multiReduction_add_single v 0x00000000#32 h hφ hacc (ix2 r l)).trans ?_
  refine Finset.sum_congr rfl fun d _ => congrArg v ?_
  funext a; refine Fin.ext ?_
  match a with
  | ⟨0, _⟩ => rfl
  | ⟨1, _⟩ => rfl
  | ⟨2, _⟩ => rfl

/-- The sum over the row axis of a [2048, 128] block, at lane l. -/
theorem rowSum (v : FVec Ideal S2048x128 .f32) (h : S2048x128.Reduces [0] S128) (hφ : FKind.Formats .f32)
    (hacc : (0x00000000#32 : BitVec 32) = FKind.add.neutral .f32 hφ) (l : Fin 128) :
    multiReduction .add [0] S128 v 0x00000000#32 h hφ hacc (ix1 l) = ∑ r : Fin 2048, v (ix2 r l) := by
  refine (Ideal.multiReduction_add_single v 0x00000000#32 h hφ hacc (ix1 l)).trans ?_
  refine Finset.sum_congr rfl fun r _ => congrArg v ?_
  funext a; refine Fin.ext ?_
  match a with
  | ⟨0, _⟩ => rfl
  | ⟨1, _⟩ => rfl

/-- The lane vector stored as a [1, 1, 128] block reads lane l at (0, 0, l). -/
theorem laneBlock (v : FVec Ideal S128 .f32) (h1 : S128.ShapeCasts S1x128) (h2 : S1x128.ShapeCasts S1x1x128) (l : Fin 128) :
    shapeCast S1x1x128 (shapeCast S1x128 v h1) h2 (ix3 (0 : Fin 1) (0 : Fin 1) l) = v (ix1 l) := by
  rw [shapeCast_ab_1ab_apply, shapeCast_a_1a_apply]

/-- The energy chain is pointwise. -/
theorem energy_apply (fe sn q : FVec Ideal S2048x128 .f32) (i : S2048x128.Idx) :
    mulf fe (subf (mulf (mulf (mulf (divf sn q) (divf sn q)) (divf sn q)) (mulf (mulf (divf sn q) (divf sn q)) (divf sn q)))
      (mulf (mulf (divf sn q) (divf sn q)) (divf sn q))) i = energy (fe i) (sn i) (q i) := rfl

/-- The squared wrapped displacement is pointwise. -/
theorem wrapSq_apply (dx ib b : FVec Ideal S3x2048x128 .f32) (i : S3x2048x128.Idx) :
    mulf (subf dx (mulf b (roundeven (mulf dx ib)))) (subf dx (mulf b (roundeven (mulf dx ib)))) i
      = wrapP (dx i) (ib i) (b i) * wrapP (dx i) (ib i) (b i) := rfl

/-- THE BODY'S TERM AT A LANE. -/
theorem pay2_lane (v3 : Vec Ideal S3x2048x128 .f32) (v5 v7 : Vec Ideal S3x1x1 .f32) (v17 v19 : Vec Ideal S1x1 .f32)
    (v31 : Vec Ideal S1x1x128 .f32) (l : Fin 128) :
    k0_pay2 (F := Ideal) v3 v5 v7 v17 v19 v31 (ix3 (0 : Fin 1) (0 : Fin 1) l)
      = v31 (ix3 (0 : Fin 1) (0 : Fin 1) l)
        + ∑ r : Fin 2048, energy (v19 (ix2 (0 : Fin 1) (0 : Fin 1))) (v17 (ix2 (0 : Fin 1) (0 : Fin 1)))
            (∑ d : Fin 3, wrapP (v3 (ix3 d r l)) (v5 (ix3 d (0 : Fin 1) (0 : Fin 1))) (v7 (ix3 d (0 : Fin 1) (0 : Fin 1)))
              * wrapP (v3 (ix3 d r l)) (v5 (ix3 d (0 : Fin 1) (0 : Fin 1))) (v7 (ix3 d (0 : Fin 1) (0 : Fin 1)))) := by
  unfold k0_pay2
  simp only [shapeCast_self]
  refine (addf_apply _ _ _).trans (congrArg (v31 (ix3 (0 : Fin 1) (0 : Fin 1) l) + ·) ?_)
  refine (laneBlock _ _ _ l).trans ?_
  refine (rowSum _ _ _ _ l).trans (Finset.sum_congr rfl fun r _ => ?_)
  refine (energy_apply _ _ _ (ix2 r l)).trans ?_
  refine congr (congr (congrArg energy (spread2 v19 _ r l)) (spread2 v17 _ r l)) ?_
  refine (coordSum _ _ _ _ r l).trans (Finset.sum_congr rfl fun d _ => ?_)
  refine (wrapSq_apply v3 _ _ (ix3 d r l)).trans ?_
  rw [spread3, spread3]

end Cert.KernelIdeal.Acc

end
-- ==== Proof.TileSum.lean ====
/-
  Sums over tiles.  A running sum that restarts every 16 steps ends each run of 16 at the sum of that run; and the sum
  over all 8388608 pairs is the sum over the two halves, the 128 lanes, the 16 steps of a half and the 2048 rows of a
  step, a pair's position being ((16 h + k) * 2048 + r) * 128 + lane.
-/
import Idealize.ShloMosaic.PureOps.Ideal
import Idealize.ShloMosaic.Lib.ValueIdx

noncomputable section

open scoped BigOperators

namespace Cert.LJ

open Idealize.ShloMosaic Idealize.ShloMosaic.ValueIdx

/-- The running sum of `B 0, B 1, …` restarted at every multiple of 16. -/
def runAcc {M : Type*} [AddCommMonoid M] (B : ℕ → M) : ℕ → M
  | 0 => B 0
  | n + 1 => if (n + 1) % 16 = 0 then B (n + 1) else runAcc B n + B (n + 1)

/-- At every step `n` the running sum is the sum of the terms from the last multiple of 16 up to `n`. -/
private theorem runAcc_closed {M : Type*} [AddCommMonoid M] (B : ℕ → M) (n : ℕ) :
    runAcc B n = ∑ i ∈ Finset.range (n % 16 + 1), B (n - n % 16 + i) := by
  induction n with
  | zero => simp [runAcc]
  | succ n ih =>
    rw [runAcc]
    by_cases hm : (n + 1) % 16 = 0
    · -- a restart: the run so far is the one term `B (n + 1)`
      rw [if_pos hm, hm]
      simp
    · -- no restart: `n + 1` lies in the same run as `n`, one place further on
      rw [if_neg hm, ih]
      have h1 : (n + 1) % 16 = n % 16 + 1 := by omega
      have h2 : n + 1 - (n % 16 + 1) = n - n % 16 := by omega
      have h3 : n - n % 16 + (n % 16 + 1) = n + 1 := by omega
      rw [h1, h2, Finset.sum_range_succ _ (n % 16 + 1), h3]

/-- At the last step of run `h` it is the sum of that run's 16 terms. -/
theorem runAcc_last {M : Type*} [AddCommMonoid M] (B : ℕ → M) (h : ℕ) :
    runAcc B (16 * h + 15) = ∑ k : Fin 16, B (16 * h + k.val) := by
  rw [runAcc_closed]
  have h1 : (16 * h + 15) % 16 = 15 := by omega
  have h2 : 16 * h + 15 - 15 = 16 * h := by omega
  rw [h1, h2]
  exact Finset.sum_range (fun i => B (16 * h + i))

/-- The position of row `r` of step `k` of half `h`, lane `l`, among the 8388608 pairs. -/
def pairPos (h : Fin 2) (l : Fin 128) (k : Fin 16) (r : Fin 2048) : Fin 8388608 :=
  ⟨((16 * h.val + k.val) * 2048 + r.val) * 128 + l.val, by omega⟩

/-- An index of shape `[2, 1, 128]` is its first and last coordinates: the middle one has a single value. -/
private def idxEquiv : (⟨3, ![2, 1, 128]⟩ : Shape).Idx ≃ Fin 2 × Fin 128 where
  toFun j := (j 0, j 2)
  invFun p := ix3 p.1 0 p.2
  left_inv j := by
    funext a
    match a with
    | ⟨0, _⟩ => rfl
    | ⟨1, _⟩ => exact (show (0 : Fin 1) = j 1 from Subsingleton.elim _ _)
    | ⟨2, _⟩ => rfl
  right_inv _ := rfl

/-- A position among the 8388608 pairs is a half, a lane, a step and a row: the mixed-radix digits of the position,
    lane least significant, then row, then step, then half. -/
private def posEquiv : Fin 2 × Fin 128 × Fin 16 × Fin 2048 ≃ Fin 8388608 where
  toFun x := pairPos x.1 x.2.1 x.2.2.1 x.2.2.2
  invFun p := (⟨p.val / 128 / 2048 / 16, by omega⟩, ⟨p.val % 128, by omega⟩,
    ⟨p.val / 128 / 2048 % 16, by omega⟩, ⟨p.val / 128 % 2048, by omega⟩)
  left_inv := by
    rintro ⟨h, l, k, r⟩
    refine Prod.ext (Fin.ext ?_) (Prod.ext (Fin.ext ?_) (Prod.ext (Fin.ext ?_) (Fin.ext ?_))) <;>
      simp only [pairPos] <;> omega
  right_inv p := by
    apply Fin.ext
    simp only [pairPos]
    omega

/-- The sum over the pairs, tile by tile. -/
theorem sum_tiles {M : Type*} [AddCommMonoid M] (f : Fin 8388608 → M) :
    ∑ j : (⟨3, ![2, 1, 128]⟩ : Shape).Idx, ∑ k : Fin 16, ∑ r : Fin 2048, f (pairPos (j 0) (j 2) k r) = ∑ p, f p := by
  -- the right side, re-indexed by (half, lane, step, row) and split into four nested sums
  rw [← Equiv.sum_comp posEquiv f, Fintype.sum_prod_type]
  -- the left side, re-indexed by (half, lane) and split into two nested sums
  rw [← Equiv.sum_comp idxEquiv.symm
    (fun j => ∑ k : Fin 16, ∑ r : Fin 2048, f (pairPos (j 0) (j 2) k r)), Fintype.sum_prod_type]
  refine Fintype.sum_congr _ _ fun h => ?_
  rw [Fintype.sum_prod_type]
  refine Fintype.sum_congr _ _ fun l => ?_
  rw [Fintype.sum_prod_type]
  rfl

end Cert.LJ

end
-- ==== Proof.RunningSum.lean ====
/-
  The output block after each grid step is the running sum of the steps' lane sums, restarted at the first step of
  each half of the grid.

  Step t contributes, at lane l, the sum over the 2048 rows of its block of the pair energies.  The first step of a
  half stores zero first, so it leaves its own lane sums; every other step adds its lane sums to what the step before
  left.  By induction on the step the block is the restarted running sum.
-/
import proofs.«415974_j5695126634505_3_alg».proof.Proof.StepLane
import proofs.«415974_j5695126634505_3_alg».proof.Proof.TileSum

noncomputable section

open scoped BigOperators
open Idealize.ShloMosaic Idealize.ShloMosaic.TcCoe Idealize.ShloMosaic.ValueIdx Idealize.SL.Sem

namespace Cert.KernelIdeal.Acc

open Cert.KernelIdeal Cert.KernelIdeal.Gen Cert.LJ

variable (m : (ℓ : Loc nD τ sig) → Buf (Elt Ideal) ℓ)

/-- Step `t`'s block of pair displacements, -/
abbrev blkD (c : Dev nD) (t : Fin cfg0.N) : Vec Ideal S3x2048x128 .f32 := iblk m c 0 t
/-- the reciprocal box edges, -/
abbrev blkIB (c : Dev nD) (t : Fin cfg0.N) : Vec Ideal S3x1x1 .f32 := iblk m c 1 t
/-- the box edges, -/
abbrev blkB (c : Dev nD) (t : Fin cfg0.N) : Vec Ideal S3x1x1 .f32 := iblk m c 2 t
/-- sigma squared, -/
abbrev blkS (c : Dev nD) (t : Fin cfg0.N) : Vec Ideal S1x1 .f32 := iblk m c 3 t
/-- and four epsilon, as the step finds them. -/
abbrev blkE (c : Dev nD) (t : Fin cfg0.N) : Vec Ideal S1x1 .f32 := iblk m c 4 t

/-- The pair energy of element (r, l) of step `t`'s block. -/
def elemE (c : Dev nD) (t : Fin cfg0.N) (r : Fin 2048) (l : Fin 128) : EReal :=
  energy (blkE m c t (ix2 (0 : Fin 1) (0 : Fin 1))) (blkS m c t (ix2 (0 : Fin 1) (0 : Fin 1)))
    (∑ d : Fin 3, wrapP (blkD m c t (ix3 d r l)) (blkIB m c t (ix3 d (0 : Fin 1) (0 : Fin 1))) (blkB m c t (ix3 d (0 : Fin 1) (0 : Fin 1)))
      * wrapP (blkD m c t (ix3 d r l)) (blkIB m c t (ix3 d (0 : Fin 1) (0 : Fin 1))) (blkB m c t (ix3 d (0 : Fin 1) (0 : Fin 1))))

/-- Step `t`'s lane sum at lane `l`. -/
def stepSum (c : Dev nD) (t : Fin cfg0.N) (l : Fin 128) : EReal := ∑ r : Fin 2048, elemE m c t r l

/-- The same with the step a natural number (zero past the grid). -/
def stepSumN (c : Dev nD) (l : Fin 128) (j : ℕ) : EReal := if h : j < cfg0.N then stepSum m c ⟨j, h⟩ l else 0

/-- The zero block reads zero. -/
theorem pay1_lane (l : Fin 128) : k0_pay1 (F := Ideal) (ix3 (0 : Fin 1) (0 : Fin 1) l) = 0 := by
  show Ideal.ofBits .f32 0x00000000#32 = 0
  exact Ideal.ofBits_zero_f32

/-- The first step of a half leaves its own lane sums. -/
theorem first_lane (c : Dev nD) (t : Fin cfg0.N) (h0 : t.val % 16 = 0) (l : Fin 128) :
    outsAt0 m c t.val t.isLt (ix3 (0 : Fin 1) (0 : Fin 1) l) = stepSum m c t l := by
  rw [outsAt0_A m c t h0]
  rw [out_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) (iblk m c 4 t)]
  refine (pay2_lane (iblk m c 0 t) (iblk m c 1 t) (iblk m c 2 t) (iblk m c 3 t) (iblk m c 4 t) (k0_pay1 (F := Ideal)) l).trans ?_
  rw [pay1_lane, zero_add]
  rfl

/-- Every other step adds its lane sums to what the step before left. -/
theorem next_lane (c : Dev nD) (t : Fin cfg0.N) (h0 : ¬t.val % 16 = 0) (l : Fin 128) :
    outsAt0 m c t.val t.isLt (ix3 (0 : Fin 1) (0 : Fin 1) l)
      = outsAt0 m c (t.val - 1) (Nat.lt_of_le_of_lt (Nat.sub_le _ _) t.isLt) (ix3 (0 : Fin 1) (0 : Fin 1) l) + stepSum m c t l := by
  rw [outsAt0_B m c t h0]
  rw [out_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (iblk m c 4 t)
    (outsAt0 m c (t.val - 1) (Nat.lt_of_le_of_lt (Nat.sub_le _ _) t.isLt))]
  refine (pay2_lane (iblk m c 0 t) (iblk m c 1 t) (iblk m c 2 t) (iblk m c 3 t) (iblk m c 4 t)
    (outsAt0 m c (t.val - 1) (Nat.lt_of_le_of_lt (Nat.sub_le _ _) t.isLt)) l).trans ?_
  rfl

/-- THE INVARIANT: after step `n` the block holds, at lane `l`, the restarted running sum of the lane sums. -/
theorem outsAt_lane (c : Dev nD) (l : Fin 128) : ∀ (n : ℕ) (h : n < cfg0.N),
    outsAt0 m c n h (ix3 (0 : Fin 1) (0 : Fin 1) l) = runAcc (stepSumN m c l) n
  | 0, h => by
    rw [first_lane m c ⟨0, h⟩ rfl l]
    show _ = stepSumN m c l 0
    unfold stepSumN; rw [dif_pos h]
  | n + 1, h => by
    by_cases h0 : (n + 1) % 16 = 0
    · rw [first_lane m c ⟨n + 1, h⟩ h0 l]
      show _ = if (n + 1) % 16 = 0 then stepSumN m c l (n + 1) else runAcc (stepSumN m c l) n + stepSumN m c l (n + 1)
      rw [if_pos h0]; unfold stepSumN; rw [dif_pos h]
    · rw [next_lane m c ⟨n + 1, h⟩ h0 l]
      show outsAt0 m c n _ (ix3 (0 : Fin 1) (0 : Fin 1) l) + _
        = if (n + 1) % 16 = 0 then stepSumN m c l (n + 1) else runAcc (stepSumN m c l) n + stepSumN m c l (n + 1)
      rw [if_neg h0, outsAt_lane c l n (Nat.lt_of_succ_lt h)]
      unfold stepSumN; rw [dif_pos h]

end Cert.KernelIdeal.Acc

end
-- ==== Proof.BlockRead.lean ====
/-
  A step's input blocks, read at an index, are the arrays the windows cover read at the index the block's rectangle
  names: step t's [3, 2048, 128] block of displacements is rows t * 2048 … t * 2048 + 2047 of the [3, 65536, 128]
  array; the four small windows never move, so their blocks are the whole small arrays.  The output window's block
  index is the half of the grid the step lies in.
-/
import proofs.«415974_j5695126634505_3_alg».proof.Proof.RunningSum

noncomputable section

open Idealize.ShloMosaic Idealize.ShloMosaic.TcCoe Idealize.ShloMosaic.ValueIdx Idealize.SL.Sem

namespace Cert.KernelIdeal.Acc

open Cert.KernelIdeal Cert.KernelIdeal.Gen

variable {F : FTy → Type} [FloatOps F]
variable (m : (ℓ : Loc nD τ sig) → Buf (Elt F) ℓ)

/-- The displacement window's block index at every grid step: the step itself on the row axis. -/
theorem idx0 : ∀ t : Fin cfg0.N,
    win0_0.index t (0 : Fin 3) = 0 ∧ win0_0.index t (1 : Fin 3) = t.val ∧ win0_0.index t (2 : Fin 3) = 0 :=
  (by decide +kernel : ∀ t : Fin grid0.N, _)
/-- The four small windows never move. -/
theorem idx1 : ∀ t : Fin cfg0.N,
    win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N,
    win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
/-- The output window's block index is the half of the grid the step lies in. -/
theorem idx5 : ∀ t : Fin cfg0.N,
    win0_5.index t (0 : Fin 3) = t.val / 16 ∧ win0_5.index t (1 : Fin 3) = 0 ∧ win0_5.index t (2 : Fin 3) = 0 :=
  (by decide +kernel : ∀ t : Fin grid0.N, _)

theorem step_lt (t : Fin cfg0.N) : t.val < 32 := lt_of_lt_of_eq t.isLt (show cfg0.N = 32 from N_0)

/-- The displacement block of step `t` is rows `t * 2048 + r` of the displacement array. -/
theorem iblk0_apply (c : Dev nD) (t : Fin cfg0.N) (d : Fin 3) (r : Fin 2048) (l : Fin 128) :
    (iblk m c 0 t : Vec F S3x2048x128 .f32) (ix3 d r l)
      = (V m c main_v4 : FVec F S3x65536x128 .f32)
          (ix3 d (⟨t.val * 2048 + r.val, by have := step_lt t; omega⟩ : Fin 65536) l) := by
  obtain ⟨e0, e1, e2⟩ := idx0 t
  unfold iblk
  rw [View.read_apply]
  show V m c main_v4 _ = V m c main_v4 _
  congr 1
  funext a; apply Fin.ext
  match a with
  | ⟨0, _⟩ => show win0_0.index t (0 : Fin 3) * 3 + 1 * d.val = d.val; rw [e0]; omega
  | ⟨1, _⟩ => show win0_0.index t (1 : Fin 3) * 2048 + 1 * r.val = t.val * 2048 + r.val; rw [e1]; omega
  | ⟨2, _⟩ => show win0_0.index t (2 : Fin 3) * 128 + 1 * l.val = l.val; rw [e2]; omega

/-- The reciprocal-box-edge block is the whole [3, 1, 1] array. -/
theorem iblk1_apply (c : Dev nD) (t : Fin cfg0.N) (d : Fin 3) :
    (iblk m c 1 t : Vec F S3x1x1 .f32) (ix3 d (0 : Fin 1) (0 : Fin 1)) = (V m c main_v7 : FVec F S3x1x1 .f32) (ix3 d (0 : Fin 1) (0 : Fin 1)) := by
  obtain ⟨e0, e1, e2⟩ := idx1 t
  unfold iblk
  rw [View.read_apply]
  show V m c main_v7 _ = V m c main_v7 _
  congr 1
  funext a; apply Fin.ext
  match a with
  | ⟨0, _⟩ => show win0_1.index t (0 : Fin 3) * 3 + 1 * d.val = d.val; rw [e0]; omega
  | ⟨1, _⟩ => show win0_1.index t (1 : Fin 3) * 1 + 1 * 0 = 0; rw [e1]
  | ⟨2, _⟩ => show win0_1.index t (2 : Fin 3) * 1 + 1 * 0 = 0; rw [e2]

/-- The box-edge block is the whole [3, 1, 1] array. -/
theorem iblk2_apply (c : Dev nD) (t : Fin cfg0.N) (d : Fin 3) :
    (iblk m c 2 t : Vec F S3x1x1 .f32) (ix3 d (0 : Fin 1) (0 : Fin 1)) = (V m c main_v5 : FVec F S3x1x1 .f32) (ix3 d (0 : Fin 1) (0 : Fin 1)) := by
  obtain ⟨e0, e1, e2⟩ := idx2 t
  unfold iblk
  rw [View.read_apply]
  show V m c main_v5 _ = V m c main_v5 _
  congr 1
  funext a; apply Fin.ext
  match a with
  | ⟨0, _⟩ => show win0_2.index t (0 : Fin 3) * 3 + 1 * d.val = d.val; rw [e0]; omega
  | ⟨1, _⟩ => show win0_2.index t (1 : Fin 3) * 1 + 1 * 0 = 0; rw [e1]
  | ⟨2, _⟩ => show win0_2.index t (2 : Fin 3) * 1 + 1 * 0 = 0; rw [e2]

/-- The sigma-squared block is the [1, 1] array. -/
theorem iblk3_apply (c : Dev nD) (t : Fin cfg0.N) :
    (iblk m c 3 t : Vec F S1x1 .f32) (ix2 (0 : Fin 1) (0 : Fin 1)) = (V m c main_v9 : FVec F S1x1 .f32) (ix2 (0 : Fin 1) (0 : Fin 1)) := by
  obtain ⟨e0, e1⟩ := idx3 t
  unfold iblk
  rw [View.read_apply]
  show V m c main_v9 _ = V m c main_v9 _
  congr 1
  funext a; apply Fin.ext
  match a with
  | ⟨0, _⟩ => show win0_3.index t (0 : Fin 2) * 1 + 1 * 0 = 0; rw [e0]
  | ⟨1, _⟩ => show win0_3.index t (1 : Fin 2) * 1 + 1 * 0 = 0; rw [e1]

/-- The four-epsilon block is the [1, 1] array. -/
theorem iblk4_apply (c : Dev nD) (t : Fin cfg0.N) :
    (iblk m c 4 t : Vec F S1x1 .f32) (ix2 (0 : Fin 1) (0 : Fin 1)) = (V m c main_v11 : FVec F S1x1 .f32) (ix2 (0 : Fin 1) (0 : Fin 1)) := by
  obtain ⟨e0, e1⟩ := idx4 t
  unfold iblk
  rw [View.read_apply]
  show V m c main_v11 _ = V m c main_v11 _
  congr 1
  funext a; apply Fin.ext
  match a with
  | ⟨0, _⟩ => show win0_4.index t (0 : Fin 2) * 1 + 1 * 0 = 0; rw [e0]
  | ⟨1, _⟩ => show win0_4.index t (1 : Fin 2) * 1 + 1 * 0 = 0; rw [e1]

end Cert.KernelIdeal.Acc

end
-- ==== Proof.HalfSums.lean ====
/-
  The [2, 1, 128] result array after the launch: entry (h, 0, l) is the sum, over the 16 steps of half h of the grid,
  of the steps' lane sums at lane l.

  The output block is written back only after the last step of each half (steps 15 and 31), to block h of the array;
  what it then holds is the restarted running sum at the end of a run of 16, that is the sum of the run.  The two
  blocks cover the array.
-/
import proofs.«415974_j5695126634505_3_alg».proof.Proof.BlockRead

noncomputable section

open scoped BigOperators
open Idealize.ShloMosaic Idealize.ShloMosaic.TcCoe Idealize.ShloMosaic.ValueIdx Idealize.SL.Sem
open Idealize.ShloMosaic.Pipeline (Dat)

namespace Cert.KernelIdeal.Acc

open Cert.KernelIdeal Cert.KernelIdeal.Gen Cert.LJ

variable (m : (ℓ : Loc nD τ sig) → Buf (Elt Ideal) ℓ)

/-- The result array: per half and lane, the sum of the half's 16 lane sums. -/
def halfSums (c : Dev nD) : FVec Ideal S2x1x128 .f32 :=
  fun j => ∑ k : Fin 16, stepSumN m c (j 2) (16 * (j 0).val + k.val)

/-- At lane `l`: what the last step of a half leaves is the result array's entry for that half and lane. -/
theorem flushed_lane (c : Dev nD) (t : Fin cfg0.N) (hf : (cfg0.win 5).flush t = true) (l : Fin 128) :
    outsAt0 m c t.val t.isLt (ix3 (0 : Fin 1) (0 : Fin 1) l)
      = ((cfg0.win 5).blk t).view.read (Elt Ideal) (halfSums m c) (ix3 (0 : Fin 1) (0 : Fin 1) l) := by
  have h15 : t.val % 16 = 15 := (flush0_5 t).mp hf
  have hN := step_lt t
  obtain ⟨e0, e1, e2⟩ := idx5 t
  rw [View.read_apply]
  have hemb : ((cfg0.win 5).blk t).view.emb (ix3 (0 : Fin 1) (0 : Fin 1) l)
      = (ix3 (⟨t.val / 16, by omega⟩ : Fin 2) (0 : Fin 1) l : S2x1x128.Idx) := by
    funext a; apply Fin.ext
    match a with
    | ⟨0, _⟩ => show win0_5.index t (0 : Fin 3) * 1 + 1 * 0 = t.val / 16; rw [e0]; omega
    | ⟨1, _⟩ => show win0_5.index t (1 : Fin 3) * 1 + 1 * 0 = 0; rw [e1]
    | ⟨2, _⟩ => show win0_5.index t (2 : Fin 3) * 128 + 1 * l.val = l.val; rw [e2]; omega
  rw [hemb]
  show _ = ∑ k : Fin 16, stepSumN m c l (16 * (t.val / 16) + k.val)
  rw [outsAt_lane m c l t.val t.isLt]
  have ht : t.val = 16 * (t.val / 16) + 15 := by omega
  rw [ht, runAcc_last]
  refine Finset.sum_congr rfl fun k _ => ?_
  congr 2
  omega

/-- What the last step of a half writes back is its block of the result array. -/
theorem flushed_eq (c : Dev nD) (t : Fin cfg0.N) (hf : (cfg0.win 5).flush t = true) :
    (dats m 0 c).flushed 5 t = ((cfg0.win 5).blk t).view.read (Elt Ideal) (halfSums m c) := by
  show (cfg0.win 5).cut (grid0.coords t) ((dats m 0 c).after 5 t) = _
  rw [after0_5]
  funext y
  have h0 : (y 0).val < 1 := (y 0).isLt
  have h1 : (y 1).val < 1 := (y 1).isLt
  have h2 : (y 2).val < 128 := (y 2).isLt
  have hy : y = (ix3 (0 : Fin 1) (0 : Fin 1) (⟨(y 2).val, h2⟩ : Fin 128) : S1x1x128.Idx) := by
    funext a; apply Fin.ext
    match a with
    | ⟨0, _⟩ => show (y 0).val = 0; omega
    | ⟨1, _⟩ => show (y 1).val = 0; omega
    | ⟨2, _⟩ => rfl
  exact hy ▸ flushed_lane m c t hf ⟨(y 2).val, h2⟩

/-- An index of the result array is in step `t`'s block iff each coordinate is in the block's range. -/
theorem mem_blk (t : Fin cfg0.N) (i : S2x1x128.Idx) :
    i ∈ ((cfg0.win 5).blk t).view.set
      ↔ ∀ a : Fin 3, win0_5.index t a * S1x1x128.size a ≤ (i a).val ∧ (i a).val < win0_5.index t a * S1x1x128.size a + S1x1x128.size a := by
  show i ∈ ((View.whole main_v12).slice (win0_5.rect t)).set ↔ _
  rw [View.set_slice_whole, Rect.mem_set_unit]
  exact Iff.rfl

/-- The two written-back blocks cover the result array. -/
theorem covered (i : S2x1x128.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 128 := (i 2).isLt
  have hlt : 16 * (i 0).val + 15 < cfg0.N := by rw [show cfg0.N = 32 from N_0]; omega
  refine ⟨⟨16 * (i 0).val + 15, hlt⟩, (flush0_5 _).mpr (by show (16 * (i 0).val + 15) % 16 = 15; omega), ?_⟩
  obtain ⟨e0, e1, e2⟩ := idx5 ⟨16 * (i 0).val + 15, hlt⟩
  rw [mem_blk]
  intro a
  match a with
  | ⟨0, _⟩ =>
    show win0_5.index ⟨16 * (i 0).val + 15, hlt⟩ (0 : Fin 3) * 1 ≤ (i 0).val ∧ (i 0).val < win0_5.index ⟨16 * (i 0).val + 15, hlt⟩ (0 : Fin 3) * 1 + 1
    rw [e0]; show (16 * (i 0).val + 15) / 16 * 1 ≤ (i 0).val ∧ (i 0).val < (16 * (i 0).val + 15) / 16 * 1 + 1; omega
  | ⟨1, _⟩ =>
    show win0_5.index ⟨16 * (i 0).val + 15, hlt⟩ (1 : Fin 3) * 1 ≤ (i 1).val ∧ (i 1).val < win0_5.index ⟨16 * (i 0).val + 15, hlt⟩ (1 : Fin 3) * 1 + 1
    rw [e1]; omega
  | ⟨2, _⟩ =>
    show win0_5.index ⟨16 * (i 0).val + 15, hlt⟩ (2 : Fin 3) * 128 ≤ (i 2).val ∧ (i 2).val < win0_5.index ⟨16 * (i 0).val + 15, hlt⟩ (2 : Fin 3) * 128 + 128
    rw [e2]; omega

/-- So the result array ends holding the half sums. -/
theorem final_out (c : Dev nD) : (dats m 0 c).arrAt 5 cfg0.N = halfSums m c :=
  (dats m 0 c).arrAt_eq_of_cover 5 (halfSums m c) (flushed_eq m c) covered

end Cert.KernelIdeal.Acc

end
-- ==== Proof.KernelRun.lean ====
/-
  The kernel program's run: its result is the zero the final host sum starts from plus the sum of the [2, 1, 128]
  result array of the launch, and its arguments end unchanged.

  After the launch the program sums the result array over all its entries.  The frame run leaves the array at what
  the grid steps wrote back (the half sums) and every other buffer as the lines after the launch leave it.
-/
import proofs.«415974_j5695126634505_3_alg».proof.Proof.HalfSums
import Idealize.ShloMosaic.Lib.StableHlo.Run

noncomputable section

open scoped BigOperators
open Idealize.ShloMosaic Idealize.ShloMosaic.TcCoe Idealize.ShloMosaic.ValueIdx Idealize.SL.Sem Idealize.ShloMosaic.StableHlo
open Idealize.ShloMosaic.Pipeline (Dat)

namespace Cert.KernelIdeal.Acc

open Cert.KernelIdeal Cert.KernelIdeal.Gen Cert.LJ

section AnyInstance

variable {F : FTy → Type} [FloatOps F]
variable (m : (ℓ : Loc nD τ sig) → Buf (Elt F) ℓ)

/-- The result buffer after the lines that follow the launch: the host sum, from the zero word, of the launch's
    result array as the grid steps left it. -/
theorem tail_result (dats : (p : Fin 1) → (c : Dev nD) → Dat τ (Elt F) Unit ℕ (UR sig nD τ) ℕ (cfgs p) c) (c : Dev nD) :
    (Pipeline.afterTail₀ cfgs dats 0 (V0 m) [hostOps1] c main_v13 : FVec F S_ .f32)
      = Host.reduceAdd ((dats 0 c).arrAt 5 cfg0.N : FVec F S2x1x128 .f32) (constant (F := F) S_ .f32 0x00000000#32)
          Facts₀.reducesTo_S2x1x128_S_d0_1_2 Facts₀.h_S_ := by
  unfold Pipeline.afterTail₀
  simp only [hostOps1, List.flatten_cons, List.flatten_nil, List.append_nil]
  after_results
  rw [Pipeline.withArrays_arr spec0 launch0.win.arr_inj c _ _ 5]

end AnyInstance

variable (m : (ℓ : Loc nD τ sig) → Buf (Elt Ideal) ℓ) (ρ : Dev nD → PrngReg)

/-- The host sum of an array from the zero word, at the extended reals: zero plus the sum of its entries. -/
theorem hostSum_all (y : FVec Ideal S2x1x128 .f32) :
    Host.reduceAdd y (constant (F := Ideal) S_ .f32 0x00000000#32) Facts₀.reducesTo_S2x1x128_S_d0_1_2 Facts₀.h_S_
      = fun _ => Ideal.ofBits .f32 0x00000000#32 + ∑ j : S2x1x128.Idx, y j := by
  funext i
  simp only [Host.reduceAdd, Ideal.hostReduceAdd_def]
  exact Ideal.hostReduceAdd_total Facts₀.reducesTo_S2x1x128_S_d0_1_2 (fun b => b.elim0) y _ i

/-- THE KERNEL'S RUN at the extended reals. -/
theorem kernel_run : θ_run defs (onTc (τ := τ) (main (F := Ideal))) ⟨m, fun _ => 0, ρ⟩ (fun r => ∀ c : Dev nD,
      r.2.mem ((c.tc : Thread nD τ).loc main_v13)
        = (fun _ => Ideal.ofBits .f32 0x00000000#32 + ∑ j : S2x1x128.Idx, halfSums m c j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v13 (Pipeline.mem_restRefs_of main_v13 (by decide) (by decide))).trans
        ((tail_result m (dats m) c).trans (by rw [final_out m c]; exact hostSum_all (halfSums m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Acc

end
-- ==== Proof.GatherRead.lean ====
/-
  Reading the two row gathers at an index, and the range of a normalised index word.

  `x[idx]` over the rows of a [262144, 3] table, and `take(xT, idx, axis=1)` over the columns of its [3, 262144]
  transpose, both read, at pair `p` and coordinate `e`, the table at the row the start index names once it is read
  signed and clamped into the table.  A 32-bit index word in [-262144, 262144) normalises (262144 added when it is
  negative) to a word in [0, 262143]: the clamp is then the identity and the two range tests `0 ≤ ·` and `· ≤ 262143`
  hold.
-/
import proofs.«415974_j5695126634505_3_alg».proof.Proof.PairEnergy
import Idealize.ShloMosaic.PureOps.ShapeOps

noncomputable section

namespace Cert.LJ

open Idealize.ShloMosaic Idealize.ShloMosaic.ValueIdx

/-- Every entry of a one-element list is that element. -/
private theorem getElem_of_eq_singleton {β : Type} {l : List β} {x : β} (hl : l = [x]) (i : Nat) (h : i < l.length) :
    l[i] = x := by
  subst hl
  exact List.mem_singleton.1 (List.getElem_mem h)

/-- On a collapsed, start-indexed, non-batching operand axis the operand coordinate is the clamped start index. -/
private theorem coord_collapsed {s si t : Shape} (d : GatherDims s si t) {w : Nat} (j : t.Idx) (idx : IVec si w)
    (a : Fin s.rank) (hc : a ∈ d.collapsedSliceDims) (hb : a ∉ d.operandBatchingDims) (hm : a ∈ d.startIndexMap) :
    (d.operandIdx j idx a).val
      = min (idx (d.siIdx j ⟨d.startIndexMap.idxOf a, List.idxOf_lt_length_iff.2 hm⟩)).toInt.toNat (s.size a - 1) := by
  show d.start j idx a + d.batchCoord j a + d.offCoord j a = _
  rw [d.batchCoord_eq_zero j a hb, d.offCoord_eq_zero j a (fun h => ((d.mem_sKept a).1 h).1 hc)]
  simp only [Nat.add_zero]
  unfold GatherDims.start
  rw [dif_pos hm, d.slice_collapsed a hc]

/-- On a kept operand axis outside the start index map the operand coordinate is the result's coordinate on the
    offset axis in that axis's position. -/
private theorem coord_offset {s si t : Shape} (d : GatherDims s si t) {w : Nat} (j : t.Idx) (idx : IVec si w)
    (a : Fin s.rank) (hk : a ∈ d.sKept) (hm : a ∉ d.startIndexMap) :
    (d.operandIdx j idx a).val
      = (j (d.offsetDims[d.sKept.idxOf a]'(by rw [d.offset_length]; exact List.idxOf_lt_length_iff.2 hk))).val := by
  show d.start j idx a + d.batchCoord j a + d.offCoord j a = _
  rw [d.batchCoord_eq_zero j a ((d.mem_sKept a).1 hk).2, Nat.add_zero]
  unfold GatherDims.start GatherDims.offCoord
  rw [dif_neg hm, dif_pos hk, Nat.zero_add]

/-- The start-indices index a result index reads on a start-indices axis that is not the index vector's: the
    result's coordinate on the batch axis in that axis's position. -/
private theorem siIdx_batch_val {s si t : Shape} (d : GatherDims s si t) (j : t.Idx) (c : Fin d.startIndexMap.length)
    (b : Fin si.rank) (hb : b.val ≠ d.indexVectorDim) :
    ∃ (k : Fin t.rank), k ∈ d.batchDims ∧ (d.siIdx j c b).val = (j k).val := by
  unfold GatherDims.siIdx
  rw [dif_neg hb]
  unfold GatherDims.siCoord
  exact ⟨_, List.getElem_mem _, rfl⟩

/-- The gather of whole rows: `x[idx]` with the [8388608, 1] column of start indices on the table's row axis. -/
theorem gather_row {α : Type} (d : GatherDims ⟨2, ![262144, 3]⟩ ⟨2, ![8388608, 1]⟩ ⟨2, ![8388608, 3]⟩)
    (hoff : d.offsetDims = [1]) (hcoll : d.collapsedSliceDims = [0]) (hob : d.operandBatchingDims = [])
    (hsim : d.startIndexMap = [0]) (hivd : d.indexVectorDim = 1) (hss : d.sliceSizes = ![1, 3])
    (x : (⟨2, ![262144, 3]⟩ : Shape).Idx → α) (idx : IVec ⟨2, ![8388608, 1]⟩ 32) (p : Fin 8388608) (e : Fin 3) :
    Host.gather d x idx (ix2 p e)
      = x (ix2 (⟨min (idx (ix2 p (0 : Fin 1))).toInt.toNat 262143, by omega⟩ : Fin 262144) e) := by
  unfold Host.gather
  congr 1
  funext a
  apply Fin.ext
  have hbd : d.batchDims = [0] := by
    show Shape.kept _ d.offsetDims = _
    rw [hoff]; decide
  have hsk : d.sKept = [1] := by
    show Shape.kept _ (d.collapsedSliceDims ++ d.operandBatchingDims) = _
    rw [hcoll, hob]; decide
  match a with
  | ⟨0, _⟩ =>
    have hm : (0 : Fin 2) ∈ d.startIndexMap := by rw [hsim]; exact List.mem_singleton.mpr rfl
    show (d.operandIdx (ix2 p e) idx 0).val = min (idx (ix2 p (0 : Fin 1))).toInt.toNat 262143
    rw [coord_collapsed d _ idx 0 (by rw [hcoll]; exact List.mem_singleton.mpr rfl) (by rw [hob]; exact List.not_mem_nil) hm]
    show min _ (262144 - 1) = min _ 262143
    congr 3
    congr 1
    funext b
    apply Fin.ext
    match b with
    | ⟨0, _⟩ =>
      obtain ⟨k, hk, hv⟩ := siIdx_batch_val d (ix2 p e) ⟨d.startIndexMap.idxOf 0, List.idxOf_lt_length_iff.2 hm⟩ 0
        (by rw [hivd]; decide)
      rw [hbd] at hk
      show (d.siIdx (ix2 p e) _ 0).val = p.val
      rw [hv, List.mem_singleton.1 hk]
    | ⟨1, _⟩ =>
      unfold GatherDims.siIdx
      rw [dif_pos (by rw [hivd])]
      show List.idxOf (0 : Fin 2) d.startIndexMap = 0
      rw [hsim]; simp
  | ⟨1, _⟩ =>
    have hk : (1 : Fin 2) ∈ d.sKept := by rw [hsk]; exact List.mem_singleton.mpr rfl
    show (d.operandIdx (ix2 p e) idx 1).val = e.val
    rw [coord_offset d _ idx 1 hk (by rw [hsim]; decide)]
    rw [getElem_of_eq_singleton hoff]

/-- The gather of whole columns of the transposed table: the start indices on the column axis. -/
theorem gather_col {α : Type} (d : GatherDims ⟨2, ![3, 262144]⟩ ⟨2, ![8388608, 1]⟩ ⟨2, ![3, 8388608]⟩)
    (hoff : d.offsetDims = [0]) (hcoll : d.collapsedSliceDims = [1]) (hob : d.operandBatchingDims = [])
    (hsim : d.startIndexMap = [1]) (hivd : d.indexVectorDim = 1) (hss : d.sliceSizes = ![3, 1])
    (x : (⟨2, ![3, 262144]⟩ : Shape).Idx → α) (idx : IVec ⟨2, ![8388608, 1]⟩ 32) (p : Fin 8388608) (e : Fin 3) :
    Host.gather d x idx (ix2 e p)
      = x (ix2 e (⟨min (idx (ix2 p (0 : Fin 1))).toInt.toNat 262143, by omega⟩ : Fin 262144)) := by
  unfold Host.gather
  congr 1
  funext a
  apply Fin.ext
  have hbd : d.batchDims = [1] := by
    show Shape.kept _ d.offsetDims = _
    rw [hoff]; decide
  have hsk : d.sKept = [0] := by
    show Shape.kept _ (d.collapsedSliceDims ++ d.operandBatchingDims) = _
    rw [hcoll, hob]; decide
  match a with
  | ⟨0, _⟩ =>
    have hk : (0 : Fin 2) ∈ d.sKept := by rw [hsk]; exact List.mem_singleton.mpr rfl
    show (d.operandIdx (ix2 e p) idx 0).val = e.val
    rw [coord_offset d _ idx 0 hk (by rw [hsim]; decide)]
    rw [getElem_of_eq_singleton hoff]
  | ⟨1, _⟩ =>
    have hm : (1 : Fin 2) ∈ d.startIndexMap := by rw [hsim]; exact List.mem_singleton.mpr rfl
    show (d.operandIdx (ix2 e p) idx 1).val = min (idx (ix2 p (0 : Fin 1))).toInt.toNat 262143
    rw [coord_collapsed d _ idx 1 (by rw [hcoll]; exact List.mem_singleton.mpr rfl) (by rw [hob]; exact List.not_mem_nil) hm]
    show min _ (262144 - 1) = min _ 262143
    congr 3
    congr 1
    funext b
    apply Fin.ext
    match b with
    | ⟨0, _⟩ =>
      obtain ⟨k, hk, hv⟩ := siIdx_batch_val d (ix2 e p) ⟨d.startIndexMap.idxOf 1, List.idxOf_lt_length_iff.2 hm⟩ 0
        (by rw [hivd]; decide)
      rw [hbd] at hk
      show (d.siIdx (ix2 e p) _ 0).val = p.val
      rw [hv, List.mem_singleton.1 hk]
    | ⟨1, _⟩ =>
      unfold GatherDims.siIdx
      rw [dif_pos (by rw [hivd])]
      show List.idxOf (1 : Fin 2) d.startIndexMap = 0
      rw [hsim]; simp

/-- The normalised word read as an integer: 262144 is added to a negative word, and the sum does not wrap. -/
private theorem norm_toInt (w : BitVec 32) (h1 : -262144 ≤ w.toInt) (h2 : w.toInt < 262144) :
    (norm w).toInt = if w.toInt < 0 then w.toInt + 262144 else w.toInt := by
  unfold norm Scalar.select IntOp.cmpi IntOp.addi
  by_cases h : w.toInt < 0
  · have hs : w.slt 0#32 = true := by
      rw [BitVec.slt_iff_toInt_lt]; simpa using h
    rw [hs, if_pos h]
    simp only [BitVec.ofBool_true, if_true]
    rw [BitVec.toInt_add]
    have : (262144#32 : BitVec 32).toInt = 262144 := by decide
    rw [this]
    rw [Int.bmod_def]
    omega
  · have hs : w.slt 0#32 = false := by
      rw [Bool.eq_false_iff, Ne, BitVec.slt_iff_toInt_lt]; simpa using h
    rw [hs, if_neg h]
    simp

/-- A word in [-262144, 262144) normalises into [0, 262143]. -/
theorem norm_range (w : BitVec 32) (h1 : -262144 ≤ w.toInt) (h2 : w.toInt < 262144) :
    0 ≤ (norm w).toInt ∧ (norm w).toInt ≤ 262143 := by
  rw [norm_toInt w h1 h2]
  split <;> omega

/-- So the lower range test of the normalised word holds, -/
theorem norm_sge (w : BitVec 32) (h1 : -262144 ≤ w.toInt) (h2 : w.toInt < 262144) :
    IntOp.cmpi .sge (norm w) 0#32 = 1#1 := by
  have h := (norm_range w h1 h2).1
  have hs : (0#32).sle (norm w) = true := by
    rw [BitVec.sle_iff_toInt_le]; simpa using h
  unfold IntOp.cmpi
  simp only [hs, BitVec.ofBool_true]
  rfl

/-- and the upper one. -/
theorem norm_sle (w : BitVec 32) (h1 : -262144 ≤ w.toInt) (h2 : w.toInt < 262144) :
    IntOp.cmpi .sle (norm w) 262143#32 = 1#1 := by
  have h := (norm_range w h1 h2).2
  have hc : (262143#32 : BitVec 32).toInt = 262143 := by decide
  have hs : (norm w).sle 262143#32 = true := by
    rw [BitVec.sle_iff_toInt_le, hc]; exact h
  unfold IntOp.cmpi
  simp only [hs, BitVec.ofBool_true]
  rfl

end Cert.LJ

end
-- ==== Proof.TakeColumns.lean ====
/-
  The table columns a list of index words takes, as one term, and its reading at an index.

  `take(xT, idx, axis=1)` over the [3, 262144] transposed table normalises each index word (262144 added to a negative
  one), gathers column `start` of the table with the start index clamped into the table, and keeps the gathered
  column only where the normalised word passes both range tests `0 ≤ ·` and `· ≤ 262143`; elsewhere it fills the
  column with the not-a-number word.  For a word in [-262144, 262144) both tests pass and the clamp is the identity, so
  element (d, p) is coordinate d of the table row the word names.
-/
import proofs.«415974_j5695126634505_3_alg».proof.Proof.Gen.KernelIdeal
import proofs.«415974_j5695126634505_3_alg».proof.Proof.PairEnergy
import proofs.«415974_j5695126634505_3_alg».proof.Proof.GatherRead
import Idealize.ShloMosaic.Lib.Pipeline.Value
import Idealize.ShloMosaic.Lib.ValueLayout
import Idealize.ShloMosaic.Lib.ReduceAll
import Idealize.ShloMosaic.Lib.StableHlo.Predicate

noncomputable section

open Idealize.ShloMosaic Idealize.ShloMosaic.ValueIdx

namespace Cert.KernelIdeal.Acc

open Cert.KernelIdeal Cert.KernelIdeal.Facts₀

variable {F : FTy → Type} [FloatOps F]

/-- The normalised index words as the [8388608, 1] column of start indices. -/
def startCol (idx : IVec S8388608 32) : IVec S8388608x1 32 :=
  broadcastInDim S8388608x1 ![0] bcast_S8388608_S8388608x1_0
    (select (cmpi .slt idx (broadcastInDim S8388608 ![] bcast_S_S8388608 (constantI S_ 32 0#32)))
      (addi idx (broadcastInDim S8388608 ![] bcast_S_S8388608 (constantI S_ 32 262144#32))) idx)

/-- Per position, whether the normalised word passes both range tests. -/
def inTable (idx : IVec S8388608 32) : IVec S8388608 1 :=
  Host.reduce IntOp.andi
    (andi (cmpi .sge (startCol idx) (broadcastInDim S8388608x1 ![] bcast_S_S8388608x1 (constantI S_ 32 0#32)))
      (cmpi .sle (startCol idx)
        (broadcastInDim S8388608x1 ![0, 1] bcast_S1x1_S8388608x1_0_1
          (broadcastInDim S1x1 ![1] bcast_S1_S1x1_1 (constantI S1 32 262143#32)))))
    (constantI S_ 1 1#1) reducesTo_S8388608x1_S8388608_d1 h_S_

/-- The taken columns: the clamped gather where the word is in the table, the fill word elsewhere. -/
def takeT (xT : FVec F S3x262144 .f32) (idx : IVec S8388608 32) : FVec F S3x8388608 .f32 :=
  select (broadcastInDim S3x8388608 ![1] bcast_S8388608_S3x8388608_1 (inTable idx))
    (Host.gather gather_S3x262144_S8388608x1_S3x8388608_0_1_n_n_1_1_31 xT (startCol idx))
    (broadcastInDim S3x8388608 ![] bcast_S_S3x8388608 (constant S_ .f32 0x7FC00000#32))

/-- A fold by `and` that starts at 1 and meets only 1s is 1. -/
private theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    refine foldl_andi_one f l _ ?_ (fun n hn => h n (List.mem_cons_of_mem _ hn))
    rw [hi, h a List.mem_cons_self]
    decide

/-- The start column at a row is the normalised index word of that row. -/
private theorem startCol_apply (idx : IVec S8388608 32) (i : S8388608x1.Idx) :
    startCol idx i = Cert.LJ.norm (idx (ix1 ⟨(i 0).val, idx2_lt0 i⟩)) := by
  unfold startCol
  rw [broadcastInDim_apply _ _ _ i (ix1 ⟨(i 0).val, idx2_lt0 i⟩) (fun a => by
    obtain rfl : a = 0 := Subsingleton.elim _ _
    rfl)]
  rfl

/-- Where the index word is in [-262144, 262144) the mask bit is 1: the one element the reduction over the unit axis
    folds is the conjunction of the two range tests of the normalised word, both of which hold. -/
private theorem inTable_apply (idx : IVec S8388608 32) (p : Fin 8388608)
    (h1 : -262144 ≤ (idx (ix1 p)).toInt) (h2 : (idx (ix1 p)).toInt < 262144) : inTable idx (ix1 p) = 1#1 := by
  unfold inTable
  rw [Host.reduce_eq_foldl]
  refine foldl_andi_one _ _ _ rfl (fun i hi => ?_)
  have hd : reducesTo_S8388608x1_S8388608_d1.drop i = ix1 p := of_decide_eq_true (List.mem_filter.1 hi).2
  have hi0 : (i 0).val = p.val := by
    rw [← Shape.ReducesTo.drop_apply_val_of_eq reducesTo_S8388608x1_S8388608_d1 i 0 0, hd]
  have hw : startCol idx i = Cert.LJ.norm (idx (ix1 p)) := by
    rw [startCol_apply]
    congr 3
    exact Fin.ext hi0
  show IntOp.andi (IntOp.cmpi .sge (startCol idx i) 0#32) (IntOp.cmpi .sle (startCol idx i) 262143#32) = 1#1
  rw [hw, Cert.LJ.norm_sge _ h1 h2, Cert.LJ.norm_sle _ h1 h2]
  decide

/-- For an index word in [-262144, 262144): element (d, p) of the taken columns of the transposed table is coordinate
    `d` of the table row the word names. -/
theorem takeT_apply (x : FVec Ideal S262144x3 .f32) (idx : IVec S8388608 32) (p : Fin 8388608) (d : Fin 3)
    (h1 : -262144 ≤ (idx (ix1 p)).toInt) (h2 : (idx (ix1 p)).toInt < 262144) :
    takeT (F := Ideal) (transpose S3x262144 [1, 0] x transposes_S262144x3_S3x262144_1_0) idx (ix2 d p)
      = x (ix2 (Cert.LJ.row (idx (ix1 p))) d) := by
  unfold takeT
  rw [select_apply, broadcastInDim_apply _ _ (inTable idx) (ix2 d p) (ix1 p) (fun a => by
    obtain rfl : a = 0 := Subsingleton.elim _ _
    rfl)]
  rw [inTable_apply idx p h1 h2, select_one]
  rw [Cert.LJ.gather_col _ rfl rfl rfl rfl rfl rfl]
  rw [transpose_ix2_apply]
  have hs : startCol idx (ix2 p (0 : Fin 1)) = Cert.LJ.norm (idx (ix1 p)) := startCol_apply idx _
  congr 2
  apply Fin.ext
  show min (startCol idx (ix2 p (0 : Fin 1))).toInt.toNat 262143 = min (Cert.LJ.norm (idx (ix1 p))).toInt.toNat 262143
  rw [hs]

end Cert.KernelIdeal.Acc

end
-- ==== Proof.HostPrefix.lean ====
/-
  The arrays the kernel's windows read, as the host lines before the launch leave them:
  the [3, 65536, 128] displacement array is the difference of the taken columns of the two index lists, laid out
  in rows of 128 pairs; the two [3, 1, 1] arrays are the reciprocals of the box edges and the box edges; the two
  [1, 1] arrays are sigma * sigma and 4 * eps.
-/
import proofs.«415974_j5695126634505_3_alg».proof.Proof.Gen.KernelIdeal.Frame
import proofs.«415974_j5695126634505_3_alg».proof.Proof.TakeColumns
import Idealize.ShloMosaic.Lib.StableHlo.Run

noncomputable section

open Idealize.ShloMosaic Idealize.ShloMosaic.TcCoe Idealize.SL.Sem Idealize.ShloMosaic.StableHlo

namespace Cert.KernelIdeal.Acc

open Cert.KernelIdeal Cert.KernelIdeal.Gen

variable {F : FTy → Type} [FloatOps F]
variable (m : (ℓ : Loc nD τ sig) → Buf (Elt F) ℓ)

/-- A line of operations run in two stretches. -/
private theorem after_split (l : List (HloOp τ sig (Elt F))) (n : Nat) (W : Valuation τ sig (Elt F)) :
    after l W = after (l.drop n) (after (l.take n) W) := by
  rw [← StableHlo.after_append, List.take_append_drop]

/-! ### The first take: its 23 operations in three stretches -/

/-- Operations 1 to 8: the index words normalised, as the column of start indices. -/
private theorem take0A_v5 (W : Valuation τ sig (Elt F)) :
    (after ((hostOps0_1 (F := F)).take 8) W (Proc.devRef .tc main_call0_v5) : IVec S8388608x1 32)
      = startCol (W (Proc.devRef .tc main_arg4)) := by
  simp only [hostOps0_1, List.take_succ_cons, List.take_zero]
  after_results_simp
  try simp only [TRef.toBuf, TRef.ofBuf, cast_eq]
  try rfl

private theorem take0A_v0 (W : Valuation τ sig (Elt F)) :
    after ((hostOps0_1 (F := F)).take 8) W (Proc.devRef .tc main_v0) = W (Proc.devRef .tc main_v0) := by
  simp only [hostOps0_1, List.take_succ_cons, List.take_zero]
  after_results_simp

/-- Operations 9 to 18: the two range tests of the start column, conjoined over its unit axis. -/
private theorem take0B_v12 (W : Valuation τ sig (Elt F)) :
    (after (((hostOps0_1 (F := F)).drop 8).take 10) W (Proc.devRef .tc main_call0_v12) : IVec S8388608 1)
      = Host.reduce IntOp.andi
          (andi (cmpi .sge (W (Proc.devRef .tc main_call0_v5) : IVec S8388608x1 32)
              (broadcastInDim S8388608x1 ![] Facts₀.bcast_S_S8388608x1 (constantI S_ 32 0#32)))
            (cmpi .sle (W (Proc.devRef .tc main_call0_v5) : IVec S8388608x1 32)
              (broadcastInDim S8388608x1 ![0, 1] Facts₀.bcast_S1x1_S8388608x1_0_1
                (broadcastInDim S1x1 ![1] Facts₀.bcast_S1_S1x1_1 (constantI S1 32 262143#32)))))
          (constantI S_ 1 1#1) Facts₀.reducesTo_S8388608x1_S8388608_d1 Facts₀.h_S_ := by
  simp only [hostOps0_1, List.drop_succ_cons, List.drop_zero, List.take_succ_cons, List.take_zero]
  after_results_simp
  try simp only [TRef.toBuf, TRef.ofBuf, cast_eq]
  try rfl

private theorem take0B_v5 (W : Valuation τ sig (Elt F)) :
    after (((hostOps0_1 (F := F)).drop 8).take 10) W (Proc.devRef .tc main_call0_v5) = W (Proc.devRef .tc main_call0_v5) := by
  simp only [hostOps0_1, List.drop_succ_cons, List.drop_zero, List.take_succ_cons, List.take_zero]
  after_results_simp

private theorem take0B_v0 (W : Valuation τ sig (Elt F)) :
    after (((hostOps0_1 (F := F)).drop 8).take 10) W (Proc.devRef .tc main_v0) = W (Proc.devRef .tc main_v0) := by
  simp only [hostOps0_1, List.drop_succ_cons, List.drop_zero, List.take_succ_cons, List.take_zero]
  after_results_simp

/-- Operations 19 to 23: the gather at the start column, kept under the mask, the fill word elsewhere. -/
private theorem take0C (W : Valuation τ sig (Elt F)) :
    (after (((hostOps0_1 (F := F)).drop 8).drop 10) W (Proc.devRef .tc main_v1) : FVec F S3x8388608 .f32)
      = select (broadcastInDim S3x8388608 ![1] Facts₀.bcast_S8388608_S3x8388608_1 (W (Proc.devRef .tc main_call0_v12) : IVec S8388608 1))
          (Host.gather gather_S3x262144_S8388608x1_S3x8388608_0_1_n_n_1_1_31 (W (Proc.devRef .tc main_v0) : FVec F S3x262144 .f32)
            (W (Proc.devRef .tc main_call0_v5) : IVec S8388608x1 32))
          (broadcastInDim S3x8388608 ![] Facts₀.bcast_S_S3x8388608 (constant S_ .f32 0x7FC00000#32)) := by
  simp only [hostOps0_1, List.drop_succ_cons, List.drop_zero]
  after_results_simp
  try simp only [TRef.toBuf, TRef.ofBuf, cast_eq]
  try rfl

/-- The whole take: the taken columns of the table at `main_v0` for the index words at `main_arg4`. -/
private theorem take0 (W : Valuation τ sig (Elt F)) :
    (after (hostOps0_1 (F := F)) W (Proc.devRef .tc main_v1) : FVec F S3x8388608 .f32)
      = takeT (W (Proc.devRef .tc main_v0)) (W (Proc.devRef .tc main_arg4)) := by
  rw [after_split _ 8, after_split (List.drop 8 _) 10, take0C, take0B_v12, take0B_v5, take0B_v0, take0A_v5, take0A_v0]
  rfl

/-! ### The second take: its 23 operations in three stretches -/

/-- Operations 1 to 8: the index words normalised, as the column of start indices. -/
private theorem take1A_v5 (W : Valuation τ sig (Elt F)) :
    (after ((hostOps0_2 (F := F)).take 8) W (Proc.devRef .tc main_call1_v5) : IVec S8388608x1 32)
      = startCol (W (Proc.devRef .tc main_arg5)) := by
  simp only [hostOps0_2, List.take_succ_cons, List.take_zero]
  after_results_simp
  try simp only [TRef.toBuf, TRef.ofBuf, cast_eq]
  try rfl

private theorem take1A_v0 (W : Valuation τ sig (Elt F)) :
    after ((hostOps0_2 (F := F)).take 8) W (Proc.devRef .tc main_v0) = W (Proc.devRef .tc main_v0) := by
  simp only [hostOps0_2, List.take_succ_cons, List.take_zero]
  after_results_simp

/-- Operations 9 to 18: the two range tests of the start column, conjoined over its unit axis. -/
private theorem take1B_v12 (W : Valuation τ sig (Elt F)) :
    (after (((hostOps0_2 (F := F)).drop 8).take 10) W (Proc.devRef .tc main_call1_v12) : IVec S8388608 1)
      = Host.reduce IntOp.andi
          (andi (cmpi .sge (W (Proc.devRef .tc main_call1_v5) : IVec S8388608x1 32)
              (broadcastInDim S8388608x1 ![] Facts₀.bcast_S_S8388608x1 (constantI S_ 32 0#32)))
            (cmpi .sle (W (Proc.devRef .tc main_call1_v5) : IVec S8388608x1 32)
              (broadcastInDim S8388608x1 ![0, 1] Facts₀.bcast_S1x1_S8388608x1_0_1
                (broadcastInDim S1x1 ![1] Facts₀.bcast_S1_S1x1_1 (constantI S1 32 262143#32)))))
          (constantI S_ 1 1#1) Facts₀.reducesTo_S8388608x1_S8388608_d1 Facts₀.h_S_ := by
  simp only [hostOps0_2, List.drop_succ_cons, List.drop_zero, List.take_succ_cons, List.take_zero]
  after_results_simp
  try simp only [TRef.toBuf, TRef.ofBuf, cast_eq]
  try rfl

private theorem take1B_v5 (W : Valuation τ sig (Elt F)) :
    after (((hostOps0_2 (F := F)).drop 8).take 10) W (Proc.devRef .tc main_call1_v5) = W (Proc.devRef .tc main_call1_v5) := by
  simp only [hostOps0_2, List.drop_succ_cons, List.drop_zero, List.take_succ_cons, List.take_zero]
  after_results_simp

private theorem take1B_v0 (W : Valuation τ sig (Elt F)) :
    after (((hostOps0_2 (F := F)).drop 8).take 10) W (Proc.devRef .tc main_v0) = W (Proc.devRef .tc main_v0) := by
  simp only [hostOps0_2, List.drop_succ_cons, List.drop_zero, List.take_succ_cons, List.take_zero]
  after_results_simp

/-- Operations 19 to 23: the gather at the start column, kept under the mask, the fill word elsewhere. -/
private theorem take1C (W : Valuation τ sig (Elt F)) :
    (after (((hostOps0_2 (F := F)).drop 8).drop 10) W (Proc.devRef .tc main_v2) : FVec F S3x8388608 .f32)
      = select (broadcastInDim S3x8388608 ![1] Facts₀.bcast_S8388608_S3x8388608_1 (W (Proc.devRef .tc main_call1_v12) : IVec S8388608 1))
          (Host.gather gather_S3x262144_S8388608x1_S3x8388608_0_1_n_n_1_1_31 (W (Proc.devRef .tc main_v0) : FVec F S3x262144 .f32)
            (W (Proc.devRef .tc main_call1_v5) : IVec S8388608x1 32))
          (broadcastInDim S3x8388608 ![] Facts₀.bcast_S_S3x8388608 (constant S_ .f32 0x7FC00000#32)) := by
  simp only [hostOps0_2, List.drop_succ_cons, List.drop_zero]
  after_results_simp
  try simp only [TRef.toBuf, TRef.ofBuf, cast_eq]
  try rfl

/-- The whole take: the taken columns of the table at `main_v0` for the index words at `main_arg5`. -/
private theorem take1 (W : Valuation τ sig (Elt F)) :
    (after (hostOps0_2 (F := F)) W (Proc.devRef .tc main_v2) : FVec F S3x8388608 .f32)
      = takeT (W (Proc.devRef .tc main_v0)) (W (Proc.devRef .tc main_arg5)) := by
  rw [after_split _ 8, after_split (List.drop 8 _) 10, take1C, take1B_v12, take1B_v5, take1B_v0, take1A_v5, take1A_v0]
  rfl

/-! ### The lines around the takes -/

/-- The one operation before the takes: the table transposed. -/
private theorem pre_v0 (W : Valuation τ sig (Elt F)) :
    (after (hostOps0 (F := F)) W (Proc.devRef .tc main_v0) : FVec F S3x262144 .f32)
      = transpose S3x262144 [1, 0] (W (Proc.devRef .tc main_arg0)) Facts₀.transposes_S262144x3_S3x262144_1_0 := by
  simp only [hostOps0]
  after_results
  try rfl

private theorem pre_arg4 (W : Valuation τ sig (Elt F)) :
    after (hostOps0 (F := F)) W (Proc.devRef .tc main_arg4) = W (Proc.devRef .tc main_arg4) := by
  simp only [hostOps0]
  after_results

private theorem pre_arg5 (W : Valuation τ sig (Elt F)) :
    after (hostOps0 (F := F)) W (Proc.devRef .tc main_arg5) = W (Proc.devRef .tc main_arg5) := by
  simp only [hostOps0]
  after_results

/-- The first take writes neither the transposed table nor the second index list; the second take does not write the
    first one's result. -/
private theorem take0_keeps_v0 (W : Valuation τ sig (Elt F)) :
    after (hostOps0_1 (F := F)) W (Proc.devRef .tc main_v0) = W (Proc.devRef .tc main_v0) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

private theorem take0_keeps_arg5 (W : Valuation τ sig (Elt F)) :
    after (hostOps0_1 (F := F)) W (Proc.devRef .tc main_arg5) = W (Proc.devRef .tc main_arg5) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

private theorem take1_keeps_v1 (W : Valuation τ sig (Elt F)) :
    after (hostOps0_2 (F := F)) W (Proc.devRef .tc main_v1) = W (Proc.devRef .tc main_v1) :=
  StableHlo.after_of_forall_not_mem _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The lines after the takes: their difference, laid out in rows of 128 pairs. -/
private theorem post_v4 (W : Valuation τ sig (Elt F)) :
    (after (hostOps0_3 (F := F)) W (Proc.devRef .tc main_v4) : FVec F S3x65536x128 .f32)
      = shapeCast S3x65536x128 (subf (W (Proc.devRef .tc main_v1) : FVec F S3x8388608 .f32) (W (Proc.devRef .tc main_v2)))
          Facts₀.shapeCasts_S3x8388608_S3x65536x128 := by
  simp only [hostOps0_3]
  after_results
  try rfl

set_option maxHeartbeats 4000000 in
/-- The displacement array. -/
theorem V_disp (c : Dev nD) : (V m c main_v4 : FVec F S3x65536x128 .f32)
    = shapeCast S3x65536x128
        (subf
          (takeT (transpose S3x262144 [1, 0] (m ((c : Thread nD τ).loc main_arg0)) Facts₀.transposes_S262144x3_S3x262144_1_0)
            (m ((c : Thread nD τ).loc main_arg4)))
          (takeT (transpose S3x262144 [1, 0] (m ((c : Thread nD τ).loc main_arg0)) Facts₀.transposes_S262144x3_S3x262144_1_0)
            (m ((c : Thread nD τ).loc main_arg5))))
        Facts₀.shapeCasts_S3x8388608_S3x65536x128 := by
  dsimp only [V, V0]
  rw [List.flatten_cons, List.flatten_cons, List.flatten_cons, List.flatten_cons, List.flatten_nil, List.append_nil,
    StableHlo.after_append, StableHlo.after_append, StableHlo.after_append,
    post_v4, take1, take1_keeps_v1, take0, take0_keeps_v0, take0_keeps_arg5, pre_v0, pre_arg4, pre_arg5]

/-- The box edges as a [3, 1, 1] array. -/
theorem V_box (c : Dev nD) : (V m c main_v5 : FVec F S3x1x1 .f32)
    = shapeCast S3x1x1 (m ((c : Thread nD τ).loc main_arg3)) Facts₀.shapeCasts_S3_S3x1x1 := by
  dsimp only [V, V0]
  simp only [hostOps0, hostOps0_1, hostOps0_2, hostOps0_3, List.flatten_cons, List.flatten_nil, List.append_nil,
    List.cons_append, List.nil_append]
  after_results
  rfl

/-- Their reciprocals. -/
theorem V_invbox (c : Dev nD) : (V m c main_v7 : FVec F S3x1x1 .f32)
    = Host.divf (broadcastInDim S3x1x1 ![] Facts₀.bcast_S_S3x1x1 (constant (F := F) S_ .f32 0x3F800000#32))
        (shapeCast S3x1x1 (m ((c : Thread nD τ).loc main_arg3)) Facts₀.shapeCasts_S3_S3x1x1) := by
  dsimp only [V, V0]
  simp only [hostOps0, hostOps0_1, hostOps0_2, hostOps0_3, List.flatten_cons, List.flatten_nil, List.append_nil,
    List.cons_append, List.nil_append]
  after_results
  rfl

/-- sigma * sigma as a [1, 1] array. -/
theorem V_sigma2 (c : Dev nD) : (V m c main_v9 : FVec F S1x1 .f32)
    = shapeCast S1x1 (mulf (m ((c : Thread nD τ).loc main_arg2)) (m ((c : Thread nD τ).loc main_arg2))) Facts₀.shapeCasts_S_S1x1 := by
  dsimp only [V, V0]
  simp only [hostOps0, hostOps0_1, hostOps0_2, hostOps0_3, List.flatten_cons, List.flatten_nil, List.append_nil,
    List.cons_append, List.nil_append]
  after_results
  rfl

/-- 4 * eps as a [1, 1] array. -/
theorem V_foureps (c : Dev nD) : (V m c main_v11 : FVec F S1x1 .f32)
    = shapeCast S1x1 (mulf (constant (F := F) S_ .f32 0x40800000#32) (m ((c : Thread nD τ).loc main_arg1))) Facts₀.shapeCasts_S_S1x1 := by
  dsimp only [V, V0]
  simp only [hostOps0, hostOps0_1, hostOps0_2, hostOps0_3, List.flatten_cons, List.flatten_nil, List.append_nil,
    List.cons_append, List.nil_append]
  after_results
  rfl

end Cert.KernelIdeal.Acc

end
-- ==== Proof.PairOfElement.lean ====
/-
  One element of a step's block is one pair's energy.

  Element (r, l) of step t's block is pair p = (t * 2048 + r) * 128 + l: its three displacement coordinates are the
  differences of the table rows the pair's two index words name, the step's reciprocal box edges are 1 / b of the box
  edges b it also holds, and its two scalars are sigma * sigma and 4 * eps.  With the reciprocal spelt 1 / b the
  wrapped coordinate through the product is the one through the quotient, so the element's energy is the pair's.
-/
import proofs.«415974_j5695126634505_3_alg».proof.Proof.BlockRead
import proofs.«415974_j5695126634505_3_alg».proof.Proof.HostPrefix
import Idealize.ShloMosaic.Lib.ValueLayout
import Idealize.ShloMosaic.Lib.IdealHost

noncomputable section

open scoped BigOperators
open Idealize.ShloMosaic Idealize.ShloMosaic.TcCoe Idealize.ShloMosaic.ValueIdx Idealize.SL.Sem

namespace Cert.KernelIdeal.Acc

open Cert.KernelIdeal Cert.KernelIdeal.Gen Cert.LJ

/-- The [3, 8388608] array laid out in rows of 128: element (d, q, l) is element (d, q * 128 + l). -/
private theorem cast_rows {α : Type} (y : S3x8388608.Idx → α) (h : S3x8388608.ShapeCasts S3x65536x128)
    (d : Fin 3) (q : Fin 65536) (l : Fin 128) (p : Fin 8388608) (hp : p.val = q.val * 128 + l.val) :
    shapeCast S3x65536x128 y h (ix3 d q l) = y (ix2 d p) := by
  refine shapeCast_apply y h _ (ix2 d p) ?_
  rw [Shape.rowMajor_val_two, Shape.rowMajor_val_three]
  show d.val * 8388608 + p.val = (d.val * 65536 + q.val) * 128 + l.val
  omega

/-- A [3] array as a [3, 1, 1] array: element (d, 0, 0) is element d. -/
private theorem cast_edges {α : Type} (b : S3.Idx → α) (h : S3.ShapeCasts S3x1x1) (d : Fin 3) :
    shapeCast S3x1x1 b h (ix3 d (0 : Fin 1) (0 : Fin 1)) = b (ix1 d) := by
  refine shapeCast_apply b h _ (ix1 d) ?_
  rw [Shape.rowMajor_val_one, Shape.rowMajor_val_three]
  show d.val = (d.val * 1 + 0) * 1 + 0
  omega

/-- A scalar as a [1, 1] array: its one element is the scalar. -/
private theorem cast_scalar {α : Type} (v : S_.Idx → α) (h : S_.ShapeCasts S1x1) :
    shapeCast S1x1 v h (ix2 (0 : Fin 1) (0 : Fin 1)) = v ix0 := by
  refine shapeCast_apply v h _ ix0 ?_
  have h0 : (S_.rowMajor ix0).val < 1 := (S_.rowMajor ix0).isLt
  rw [Shape.rowMajor_val_two]
  show (S_.rowMajor ix0).val = 0 * 1 + 0
  omega

/-- The quotient of the spread constant one by an array, at an index: `1 / b`. -/
private theorem recip_apply (B : FVec Ideal S3x1x1 .f32) (hb : S_.BroadcastsInDim S3x1x1 (![] : Fin 0 → Fin S3x1x1.rank))
    (i : S3x1x1.Idx) :
    Host.divf (broadcastInDim S3x1x1 ![] hb (constant (F := Ideal) S_ .f32 0x3F800000#32)) B i = Ideal.div 1 (B i) := by
  show Ideal.div (broadcastInDim S3x1x1 ![] hb (constant (F := Ideal) S_ .f32 0x3F800000#32) i) (B i) = _
  rw [broadcastInDim_apply _ hb _ i ix0 (fun a => a.elim0)]
  show Ideal.div (Ideal.ofBits .f32 0x3F800000#32) (B i) = _
  rw [Ideal.ofBits_one_f32]

variable (m : (ℓ : Loc nD τ sig) → Buf (Elt Ideal) ℓ)

/-- The step's four-epsilon scalar is `4 * eps`. -/
private theorem blkE_read (c : Dev nD) (t : Fin cfg0.N) (e : FVec Ideal S_ .f32)
    (he : e = m ((c : Thread nD τ).loc main_arg1)) :
    blkE m c t (ix2 (0 : Fin 1) (0 : Fin 1)) = Ideal.ofBits .f32 0x40800000#32 * e ix0 := by
  subst he
  refine (iblk4_apply m c t).trans ?_
  refine (congrFun (V_foureps m c) _).trans ?_
  refine (cast_scalar _ _).trans ?_
  rfl

/-- The step's sigma-squared scalar is `sigma * sigma`. -/
private theorem blkS_read (c : Dev nD) (t : Fin cfg0.N) (s : FVec Ideal S_ .f32)
    (hs : s = m ((c : Thread nD τ).loc main_arg2)) :
    blkS m c t (ix2 (0 : Fin 1) (0 : Fin 1)) = s ix0 * s ix0 := by
  subst hs
  refine (iblk3_apply m c t).trans ?_
  refine (congrFun (V_sigma2 m c) _).trans ?_
  refine (cast_scalar _ _).trans ?_
  rfl

/-- The step's box edge `d` is the box's. -/
private theorem blkB_read (c : Dev nD) (t : Fin cfg0.N) (d : Fin 3) (box : FVec Ideal S3 .f32)
    (hb : box = m ((c : Thread nD τ).loc main_arg3)) :
    blkB m c t (ix3 d (0 : Fin 1) (0 : Fin 1)) = box (ix1 d) := by
  subst hb
  refine (iblk2_apply m c t d).trans ?_
  refine (congrFun (V_box m c) _).trans ?_
  exact cast_edges _ _ d

/-- The step's reciprocal box edge `d` is `1 / b` of the box's edge `b`. -/
private theorem blkIB_read (c : Dev nD) (t : Fin cfg0.N) (d : Fin 3) (box : FVec Ideal S3 .f32)
    (hb : box = m ((c : Thread nD τ).loc main_arg3)) :
    blkIB m c t (ix3 d (0 : Fin 1) (0 : Fin 1)) = Ideal.div 1 (box (ix1 d)) := by
  subst hb
  refine (iblk1_apply m c t d).trans ?_
  refine (congrFun (V_invbox m c) _).trans ?_
  refine (recip_apply _ _ _).trans ?_
  exact congrArg (Ideal.div 1) (cast_edges _ _ d)

/-- The pair at row `r`, lane `l` of step `t`'s block. -/
def pairOf (t : Fin cfg0.N) (r : Fin 2048) (l : Fin 128) : Fin 8388608 :=
  ⟨(t.val * 2048 + r.val) * 128 + l.val, by have := step_lt t; omega⟩

/-- The step's displacement element (d, r, l) is the difference of coordinate `d` of the two table rows the pair's
    index words name. -/
private theorem blkD_read (c : Dev nD) (t : Fin cfg0.N) (d : Fin 3) (r : Fin 2048) (l : Fin 128)
    (x : FVec Ideal S262144x3 .f32) (ii jj : IVec S8388608 32)
    (hx : x = m ((c : Thread nD τ).loc main_arg0)) (hii : ii = m ((c : Thread nD τ).loc main_arg4))
    (hjj : jj = m ((c : Thread nD τ).loc main_arg5))
    (hi : ∀ p : Fin 8388608, -262144 ≤ (ii (ix1 p)).toInt ∧ (ii (ix1 p)).toInt < 262144)
    (hj : ∀ p : Fin 8388608, -262144 ≤ (jj (ix1 p)).toInt ∧ (jj (ix1 p)).toInt < 262144) :
    blkD m c t (ix3 d r l)
      = x (ix2 (row (ii (ix1 (pairOf t r l)))) d) - x (ix2 (row (jj (ix1 (pairOf t r l)))) d) := by
  subst hx hii hjj
  refine (iblk0_apply m c t d r l).trans ?_
  refine (congrFun (V_disp m c) _).trans ?_
  refine (cast_rows _ _ d (⟨t.val * 2048 + r.val, by have := step_lt t; omega⟩ : Fin 65536) l (pairOf t r l) rfl).trans ?_
  refine (subf_apply _ _ _).trans ?_
  exact congr (congrArg HSub.hSub (takeT_apply _ _ _ d (hi _).1 (hi _).2)) (takeT_apply _ _ _ d (hj _).1 (hj _).2)

/-- The element's energy is the pair's, with the program's arguments as variables. -/
private theorem elemE_of (c : Dev nD) (t : Fin cfg0.N) (r : Fin 2048) (l : Fin 128)
    (x : FVec Ideal S262144x3 .f32) (e s : FVec Ideal S_ .f32) (box : FVec Ideal S3 .f32) (ii jj : IVec S8388608 32)
    (hx : x = m ((c : Thread nD τ).loc main_arg0)) (he : e = m ((c : Thread nD τ).loc main_arg1))
    (hs : s = m ((c : Thread nD τ).loc main_arg2)) (hb : box = m ((c : Thread nD τ).loc main_arg3))
    (hii : ii = m ((c : Thread nD τ).loc main_arg4)) (hjj : jj = m ((c : Thread nD τ).loc main_arg5))
    (hi : ∀ p : Fin 8388608, -262144 ≤ (ii (ix1 p)).toInt ∧ (ii (ix1 p)).toInt < 262144)
    (hj : ∀ p : Fin 8388608, -262144 ≤ (jj (ix1 p)).toInt ∧ (jj (ix1 p)).toInt < 262144) :
    elemE m c t r l = pairE x e s box (ii (ix1 (pairOf t r l))) (jj (ix1 (pairOf t r l))) := by
  have hw : ∀ d : Fin 3,
      wrapP (blkD m c t (ix3 d r l)) (blkIB m c t (ix3 d (0 : Fin 1) (0 : Fin 1))) (blkB m c t (ix3 d (0 : Fin 1) (0 : Fin 1)))
        = disp x box (ii (ix1 (pairOf t r l))) (jj (ix1 (pairOf t r l))) d := fun d =>
    (congr (congr (congrArg wrapP (blkD_read m c t d r l x ii jj hx hii hjj hi hj)) (blkIB_read m c t d box hb))
      (blkB_read m c t d box hb)).trans
      (wrapR_eq_wrapQ (x (ix2 (row (ii (ix1 (pairOf t r l)))) d) - x (ix2 (row (jj (ix1 (pairOf t r l)))) d)) (box (ix1 d)))
  unfold elemE pairE dist2
  refine congr (congr (congrArg energy (blkE_read m c t e he)) (blkS_read m c t s hs)) ?_
  exact Finset.sum_congr rfl fun d _ => congr (congrArg HMul.hMul (hw d)) (hw d)

/-- For index words in [-262144, 262144): the element's energy is the pair's energy. -/
theorem elemE_eq_pairE (c : Dev nD) (t : Fin cfg0.N) (r : Fin 2048) (l : Fin 128)
    (hi : ∀ p : Fin 8388608, -262144 ≤ ((m ((c : Thread nD τ).loc main_arg4) : IVec S8388608 32) (ix1 p)).toInt
      ∧ ((m ((c : Thread nD τ).loc main_arg4) : IVec S8388608 32) (ix1 p)).toInt < 262144)
    (hj : ∀ p : Fin 8388608, -262144 ≤ ((m ((c : Thread nD τ).loc main_arg5) : IVec S8388608 32) (ix1 p)).toInt
      ∧ ((m ((c : Thread nD τ).loc main_arg5) : IVec S8388608 32) (ix1 p)).toInt < 262144) :
    elemE m c t r l
      = pairE (m ((c : Thread nD τ).loc main_arg0)) (m ((c : Thread nD τ).loc main_arg1)) (m ((c : Thread nD τ).loc main_arg2))
          (m ((c : Thread nD τ).loc main_arg3))
          ((m ((c : Thread nD τ).loc main_arg4) : IVec S8388608 32) (ix1 (pairOf t r l)))
          ((m ((c : Thread nD τ).loc main_arg5) : IVec S8388608 32) (ix1 (pairOf t r l))) := by
  exact elemE_of m c t r l _ _ _ _ _ _ rfl rfl rfl rfl rfl rfl hi hj

end Cert.KernelIdeal.Acc

end
-- ==== Proof.TotalOfHalves.lean ====
/-
  The sum of the [2, 1, 128] result array is the total pair energy.

  Entry (h, 0, l) sums, over the 16 steps of half h and the 2048 rows of a step, the energies of the block elements
  at lane l; element (r, l) of step 16 h + k is pair ((16 h + k) * 2048 + r) * 128 + l, and every pair is met once.
-/
import proofs.«415974_j5695126634505_3_alg».proof.Proof.HalfSums
import proofs.«415974_j5695126634505_3_alg».proof.Proof.PairOfElement

noncomputable section

open scoped BigOperators
open Idealize.ShloMosaic Idealize.ShloMosaic.TcCoe Idealize.ShloMosaic.ValueIdx Idealize.SL.Sem

namespace Cert.KernelIdeal.Acc

open Cert.KernelIdeal Cert.KernelIdeal.Gen Cert.LJ

variable (m : (ℓ : Loc nD τ sig) → Buf (Elt Ideal) ℓ)

/-- For index words in [-262144, 262144): the result array sums to the total energy. -/
theorem halves_total (c : Dev nD)
    (hi : ∀ p : Fin 8388608, -262144 ≤ ((m ((c : Thread nD τ).loc main_arg4) : IVec S8388608 32) (ix1 p)).toInt
      ∧ ((m ((c : Thread nD τ).loc main_arg4) : IVec S8388608 32) (ix1 p)).toInt < 262144)
    (hj : ∀ p : Fin 8388608, -262144 ≤ ((m ((c : Thread nD τ).loc main_arg5) : IVec S8388608 32) (ix1 p)).toInt
      ∧ ((m ((c : Thread nD τ).loc main_arg5) : IVec S8388608 32) (ix1 p)).toInt < 262144) :
    ∑ j : S2x1x128.Idx, halfSums m c j
      = total (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have hN : cfg0.N = 32 := N_0
  -- the total, tile by tile: halves and lanes outermost, then the 16 steps of a half, then the 2048 rows of a step
  refine Eq.trans ?_ (sum_tiles (fun p : Fin 8388608 =>
    pairE (m ((c : Thread nD τ).loc main_arg0)) (m ((c : Thread nD τ).loc main_arg1)) (m ((c : Thread nD τ).loc main_arg2))
      (m ((c : Thread nD τ).loc main_arg3))
      ((m ((c : Thread nD τ).loc main_arg4) : IVec S8388608 32) (ix1 p))
      ((m ((c : Thread nD τ).loc main_arg5) : IVec S8388608 32) (ix1 p))))
  refine Finset.sum_congr rfl fun j _ => ?_
  -- entry j of the result array is the sum over the 16 steps of its half
  show ∑ k : Fin 16, stepSumN m c (j 2) (16 * (j 0).val + k.val) = _
  refine Finset.sum_congr rfl fun k _ => ?_
  -- step 16 h + k is one of the 32 steps of the grid, so its lane sum is the sum over the 2048 rows of its block
  have h0 : (j 0).val < 2 := (j 0).isLt
  have hk : k.val < 16 := k.isLt
  have hlt : 16 * (j 0).val + k.val < cfg0.N := by rw [hN]; omega
  unfold stepSumN
  rw [dif_pos hlt]
  unfold stepSum
  refine Finset.sum_congr rfl fun r _ => ?_
  -- an element is its pair's energy, and the pair of element (r, l) of step 16 h + k is at position
  -- ((16 h + k) * 2048 + r) * 128 + l
  rw [elemE_eq_pairE m c ⟨16 * (j 0).val + k.val, hlt⟩ r (j 2) hi hj]
  have hp : pairOf ⟨16 * (j 0).val + k.val, hlt⟩ r (j 2) = pairPos (j 0) (j 2) k r := Fin.ext rfl
  rw [hp]

end Cert.KernelIdeal.Acc

end
-- ==== Proof.RefTotal.lean ====
/-
  The reference's result is the total pair energy: its one result element is `0 + ∑ over the pairs` of the pair
  energy of the rows its two clamped row gathers read.
-/
import proofs.«415974_j5695126634505_3_alg».proof.Proof.Gen.ReferenceIdeal.Read
import proofs.«415974_j5695126634505_3_alg».proof.Proof.PairEnergy
import proofs.«415974_j5695126634505_3_alg».proof.Proof.GatherRead

noncomputable section

open scoped BigOperators

namespace Cert.LJ

open Idealize.ShloMosaic Idealize.ShloMosaic.ValueIdx Cert.ReferenceIdeal Cert.ReferenceIdeal.Read

/-- The first gather's start index at pair `p` is the normalised first index word. -/
private theorem start_i (ii : IVec S8388608 32) (p : Fin 8388608) :
    val_main_v5 (F := Ideal) ii (ix2 p (0 : Fin 1)) = norm (ii (ix1 p)) := by
  have hix : idx_main_v5 (ix2 p (0 : Fin 1)) = ix1 p :=
    funext fun a => Fin.ext (by match a with | ⟨0, _⟩ => rfl)
  rw [val_main_v5_apply, val_main_v4_apply, val_main_v1_apply, val_main_v3_apply, val_main_v0_apply,
    val_main_v2_apply, val_main_c_apply, val_main_c_0_apply, hix]
  rfl

/-- The second gather's start index at pair `p` is the normalised second index word. -/
private theorem start_j (jj : IVec S8388608 32) (p : Fin 8388608) :
    val_main_v12 (F := Ideal) jj (ix2 p (0 : Fin 1)) = norm (jj (ix1 p)) := by
  have hix : idx_main_v12 (ix2 p (0 : Fin 1)) = ix1 p :=
    funext fun a => Fin.ext (by match a with | ⟨0, _⟩ => rfl)
  rw [val_main_v12_apply, val_main_v11_apply, val_main_v8_apply, val_main_v10_apply, val_main_v7_apply,
    val_main_v9_apply, val_main_c_1_apply, val_main_c_2_apply, hix]
  rfl

/-- The first gather at pair `p`, coordinate `d`: the table at the row the first index word names. -/
private theorem gather_i (x : FVec Ideal S262144x3 .f32) (ii : IVec S8388608 32) (p : Fin 8388608) (d : Fin 3) :
    val_main_v6 (F := Ideal) x ii (ix2 p d) = x (ix2 (row (ii (ix1 p))) d) := by
  unfold val_main_v6
  rw [gather_row _ rfl rfl rfl rfl rfl rfl]
  refine congrArg (fun r : Fin 262144 => x (ix2 r d)) (Fin.ext ?_)
  show min (val_main_v5 (F := Ideal) ii (ix2 p (0 : Fin 1))).toInt.toNat 262143 = min (norm (ii (ix1 p))).toInt.toNat 262143
  rw [start_i]

/-- The second gather at pair `p`, coordinate `d`: the table at the row the second index word names. -/
private theorem gather_j (x : FVec Ideal S262144x3 .f32) (jj : IVec S8388608 32) (p : Fin 8388608) (d : Fin 3) :
    val_main_v13 (F := Ideal) x jj (ix2 p d) = x (ix2 (row (jj (ix1 p))) d) := by
  unfold val_main_v13
  rw [gather_row _ rfl rfl rfl rfl rfl rfl]
  refine congrArg (fun r : Fin 262144 => x (ix2 r d)) (Fin.ext ?_)
  show min (val_main_v12 (F := Ideal) jj (ix2 p (0 : Fin 1))).toInt.toNat 262143 = min (norm (jj (ix1 p))).toInt.toNat 262143
  rw [start_j]

/-- Stage 23 at pair `p`, coordinate `k`: the square of the minimum-image displacement's coordinate `k`. -/
private theorem coord_read (x : FVec Ideal S262144x3 .f32) (box : FVec Ideal S3 .f32) (ii jj : IVec S8388608 32)
    (p : Fin 8388608) (k : Fin 3) :
    val_main_v23 (F := Ideal) x box ii jj (idx_main_v24 (ix1 p) k)
      = disp x box (ii (ix1 p)) (jj (ix1 p)) k * disp x box (ii (ix1 p)) (jj (ix1 p)) k := by
  have h24 : idx_main_v24 (ix1 p) k = ix2 p k :=
    funext fun a => Fin.ext (by match a with | ⟨0, _⟩ => rfl | ⟨1, _⟩ => rfl)
  have h16 : idx_main_v15 (idx_main_v16 (ix2 p k)) = ix1 k :=
    funext fun a => Fin.ext (by match a with | ⟨0, _⟩ => rfl)
  have h20 : idx_main_v19 (idx_main_v20 (ix2 p k)) = ix1 k :=
    funext fun a => Fin.ext (by match a with | ⟨0, _⟩ => rfl)
  rw [h24, val_main_v23_apply, val_main_v22_apply, val_main_v21_apply, val_main_v20_apply, val_main_v19_apply, h20,
    val_main_v18_apply, val_main_v17_apply, val_main_v16_apply, val_main_v15_apply, h16, val_main_v14_apply,
    gather_i, gather_j]
  simp only [Ideal.mulf_def, Ideal.subf_def, Ideal.hostDivf_def, Ideal.hostUnary_roundeven_def]
  rfl

/-- Stage 34 at pair `p`: that pair's energy. -/
private theorem pair_read (x : FVec Ideal S262144x3 .f32) (e s : FVec Ideal S_ .f32) (box : FVec Ideal S3 .f32)
    (ii jj : IVec S8388608 32) (p : Fin 8388608) :
    val_main_v34 (F := Ideal) x e s box ii jj (ix1 p) = pairE x e s box (ii (ix1 p)) (jj (ix1 p)) := by
  rw [val_main_v34_apply, val_main_v33_apply, val_main_v30_apply, val_main_cst_3_apply, val_main_v32_apply,
    val_main_v31_apply, val_main_v29_apply, val_main_v28_apply, val_main_v27_apply, val_main_v26_apply,
    val_main_v25_apply, val_main_v24_apply, val_main_cst_apply]
  simp only [coord_read]
  simp only [Ideal.mulf_def, Ideal.subf_def, Ideal.hostDivf_def, Ideal.ofBits_def, Ideal.ofBits_zero_f32, zero_add]
  rfl

/-- The pair index set is the range of its one coordinate. -/
private def pairEquiv : Fin 8388608 ≃ S8388608.Idx where
  toFun p := ix1 p
  invFun j := j 0
  left_inv _ := rfl
  right_inv j := (eq_ix1 j).symm

/-- The reference's last stage, at the extended reals, is the zero it starts from plus the total energy. -/
theorem ref_total (x : FVec Ideal S262144x3 .f32) (e s : FVec Ideal S_ .f32) (box : FVec Ideal S3 .f32)
    (ii jj : IVec S8388608 32) :
    val_main_v35 (F := Ideal) x e s box ii jj = fun _ => Ideal.ofBits .f32 0x00000000#32 + total x e s box ii jj := by
  funext i
  rw [val_main_v35_apply, val_main_cst_4_apply, Ideal.ofBits_def]
  refine congrArg (Ideal.ofBits .f32 0x00000000#32 + ·) ?_
  unfold total
  rw [← Equiv.sum_comp pairEquiv]
  exact Finset.sum_congr rfl fun p _ => pair_read x e s box ii jj p

end Cert.LJ

end
-- ==== Proof.IndexRange.lean ====
/-
  What the precondition says of the index inputs: every index word of both lists lies in [-262144, 262144), the range
  in which numpy's `x[idx]` over 262144 rows is defined.
-/
import proofs.«415974_j5695126634505_3_alg».proof.Pre_finite_inputs
import Idealize.ShloMosaic.Lib.ReduceAll
import Idealize.ShloMosaic.Lib.StableHlo.Predicate
import Idealize.ShloMosaic.Lib.ValueIdx

noncomputable section

namespace Cert.LJ

open Idealize.ShloMosaic Idealize.ShloMosaic.ValueIdx

variable {F : FTy → Type} [FloatOps F] [Cert.Pre_finite_inputs.Facts]

/-- The rank-0 shape has exactly one index. -/
private instance : Subsingleton Cert.Pre_finite_inputs.S_.Idx := ⟨fun _ _ => funext fun d => d.elim0⟩

/-- The two literals the range test compares against, read as signed words. -/
private theorem lo_toInt : (4294705152#32 : BitVec 32).toInt = -262144 := by decide
private theorem hi_toInt : (262144#32 : BitVec 32).toInt = 262144 := by decide

/-- One range test read back: if the and-reduction over all positions of `(lo ≤ a) ∧ (a < hi)`, both compares signed
    and against a broadcast scalar, is the bit 1, then at every position the word of `a`, read signed, lies in
    [-262144, 262144). The reduction being 1 makes every element 1; an element is the `and` of the two compare bits
    at that position, and a broadcast scalar reads the scalar there. -/
private theorem range_of_all (a : IVec Cert.Pre_finite_inputs.S8388608 32)
    (hb : Cert.Pre_finite_inputs.S_.BroadcastsInDim Cert.Pre_finite_inputs.S8388608
      (![] : Fin 0 → Fin Cert.Pre_finite_inputs.S8388608.rank))
    (hr : Cert.Pre_finite_inputs.S8388608.ReducesTo [0] Cert.Pre_finite_inputs.S_)
    (hu : 0 < Cert.Pre_finite_inputs.S_.numel)
    (e : Host.reduce IntOp.andi
        (andi (cmpi .sge a (broadcastInDim Cert.Pre_finite_inputs.S8388608 ![] hb
                (constantI Cert.Pre_finite_inputs.S_ 32 4294705152#32)))
              (cmpi .slt a (broadcastInDim Cert.Pre_finite_inputs.S8388608 ![] hb
                (constantI Cert.Pre_finite_inputs.S_ 32 262144#32))))
        (constantI Cert.Pre_finite_inputs.S_ 1 1#1) hr hu ix0 = 1#1)
    (p : Fin 8388608) : -262144 ≤ (a (ix1 p)).toInt ∧ (a (ix1 p)).toInt < 262144 := by
  have hp := Host.reduce_andi_all _ _ hr hu ix0 e (ix1 p)
  change IntOp.andi (IntOp.cmpi .sge (a (ix1 p)) 4294705152#32) (IntOp.cmpi .slt (a (ix1 p)) 262144#32) = 1#1 at hp
  obtain ⟨hlo, hhi⟩ := IntOp.andi_eq_one.1 hp
  rw [IntOp.cmpi_sge, lo_toInt] at hlo
  rw [IntOp.cmpi_slt, hi_toInt] at hhi
  exact ⟨hlo, hhi⟩

/-- Under the precondition both index lists hold words in [-262144, 262144). -/
theorem idx_range_of_pre (x : FVec F Cert.Pre_finite_inputs.S262144x3 .f32) (e s : FVec F Cert.Pre_finite_inputs.S_ .f32)
    (box : FVec F Cert.Pre_finite_inputs.S3 .f32) (ii jj : IVec Cert.Pre_finite_inputs.S8388608 32)
    (h : Cert.Pre_finite_inputs.fn (F := F) x e s box ii jj = fun _ => 1#1) (p : Fin 8388608) :
    (-262144 ≤ (ii (ix1 p)).toInt ∧ (ii (ix1 p)).toInt < 262144)
      ∧ (-262144 ≤ (jj (ix1 p)).toInt ∧ (jj (ix1 p)).toInt < 262144) := by
  -- The precondition at its one index: a conjunction, bit by bit, whose last two bits are the two range tests.
  have h0 := congrFun h ix0
  dsimp only [Cert.Pre_finite_inputs.fn, Cert.Pre_finite_inputs.fn_part1] at h0
  change IntOp.andi _ _ = 1#1 at h0
  obtain ⟨h1, hjj⟩ := IntOp.andi_eq_one.1 h0
  change IntOp.andi _ _ = 1#1 at h1
  obtain ⟨-, hii⟩ := IntOp.andi_eq_one.1 h1
  exact ⟨range_of_all ii _ _ _ hii p, range_of_all jj _ _ _ hjj p⟩

end Cert.LJ

end
-- ==== Proof.lean ====
/-
  The certificate: a Lennard-Jones energy over a pair list, a grid of 32 steps over two halves against one sum.

  Both programs compute, for each of the 8388608 pairs, the minimum-image displacement between the two table rows the
  pair's index words name, its squared length, and the energy 4 eps (s6 * s6 - s6), and add these up.  The kernel
  program takes the rows out of the transposed table, filling rows whose index word is outside the table with a
  not-a-number word where the reference's gather clamps the index; under the precondition every index word is in
  [-262144, 262144), where both read the same row.  It multiplies by the reciprocal box edge where the reference
  divides by the box edge: on the extended reals the two wrapped coordinates agree for every box edge.  It sums in
  tiles — 16 steps of 2048 rows for each of 2 halves and 128 lanes, then the 256 partial sums — where the reference
  sums the pairs in one reduction: addition of extended reals is commutative and associative, so the two sums agree.
-/
import proofs.«415974_j5695126634505_3_alg».proof.Defs
import proofs.«415974_j5695126634505_3_alg».proof.Proof.Gen.Kernel
import proofs.«415974_j5695126634505_3_alg».proof.Proof.Gen.Kernel.Skeleton
import proofs.«415974_j5695126634505_3_alg».proof.Proof.Gen.Kernel.Launch
import proofs.«415974_j5695126634505_3_alg».proof.Proof.Gen.Kernel.Points
import proofs.«415974_j5695126634505_3_alg».proof.Proof.Gen.Kernel.Frame
import proofs.«415974_j5695126634505_3_alg».proof.Proof.Gen.KernelIdeal
import proofs.«415974_j5695126634505_3_alg».proof.Proof.Gen.KernelIdeal.Skeleton
import proofs.«415974_j5695126634505_3_alg».proof.Proof.Gen.KernelIdeal.Launch
import proofs.«415974_j5695126634505_3_alg».proof.Proof.Gen.KernelIdeal.Points
import proofs.«415974_j5695126634505_3_alg».proof.Proof.Gen.KernelIdeal.Frame
import proofs.«415974_j5695126634505_3_alg».proof.Proof.Gen.ReferenceIdeal
import proofs.«415974_j5695126634505_3_alg».proof.Proof.Gen.Pre_finite_inputs
import proofs.«415974_j5695126634505_3_alg».proof.Proof.Gen.ReferenceIdeal.Run
import proofs.«415974_j5695126634505_3_alg».proof.Proof.Gen.ReferenceIdeal.Read
import proofs.«415974_j5695126634505_3_alg».proof.Proof.KernelRun
import proofs.«415974_j5695126634505_3_alg».proof.Proof.TotalOfHalves
import proofs.«415974_j5695126634505_3_alg».proof.Proof.RefTotal
import proofs.«415974_j5695126634505_3_alg».proof.Proof.IndexRange
import Idealize.ShloMosaic.Adequacy
import Idealize.ShloMosaic.Init

noncomputable section

namespace Cert.Proof

open Idealize.ShloMosaic Idealize.ShloMosaic.TcCoe Idealize.SL.Sem

/-- The three frames: the two kernel programs' by their frame runs, the reference's by its run with the result
    dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at zero plus the total pair energy of the same arguments. -/
theorem algebraic : Cert.algebraic_KernelIdeal_ReferenceIdeal := by
  intro m ρ m' ρ' hpre hagree
  refine ⟨fun c => (fun _ => Ideal.ofBits .f32 0x00000000#32
    + Cert.LJ.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), ?_, ?_⟩
  · refine (θ_run Cert.KernelIdeal.defs _ _).mono (fun _ h c => ⟨(h c).1.trans ?_, (h c).2⟩)
      (Cert.KernelIdeal.Acc.kernel_run m ρ)
    have hr := fun p => Cert.LJ.idx_range_of_pre (F := Ideal) _ _ _ _ _ _ (hpre c) p
    rw [Cert.KernelIdeal.Acc.halves_total m c (fun p => (hr p).1) (fun p => (hr p).2)]
  · refine (θ_run Cert.ReferenceIdeal.defs _ _).mono (fun _ h c => ⟨?_, (h c).2⟩)
      (Cert.ReferenceIdeal.Value.run (F := Ideal) m' ρ')
    rw [(h c).1, Cert.ReferenceIdeal.Read.val_main_v35_eq, Cert.LJ.ref_total, (hagree c).1, (hagree c).2.1,
      (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
